-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S8 : Shape := ⟨1, ![8]⟩
abbrev S4096x4096 : Shape := ⟨2, ![4096, 4096]⟩
abbrev S4096 : Shape := ⟨1, ![4096]⟩
abbrev S8x4096x64 : Shape := ⟨3, ![8, 4096, 64]⟩
abbrev S8x64x4096 : Shape := ⟨3, ![8, 64, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x4096x64 : S_.BroadcastsInDim S8x4096x64 (![] : Fin 0 → Fin S8x4096x64.rank)
  reducesTo_S8x4096x64_S_d0_1_2 : S8x4096x64.ReducesTo [0, 1, 2] S_
  bcast_S_S8x64x4096 : S_.BroadcastsInDim S8x64x4096 (![] : Fin 0 → Fin S8x64x4096.rank)
  reducesTo_S8x64x4096_S_d0_1_2 : S8x64x4096.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_arg1 : IVec S8 32) (main_arg5 : FVec F S8x64x4096 .f32) (main_v13 : IVec S_ 1) (main_v16 : IVec S8x4096x64 1) : IVec S_ 1 :=
  let main_c_5 : IVec S_ 1 := constantI S_ 1 1#1
  let main_v17 : IVec S_ 1 := (fun x v => Host.reduce IntOp.andi x v reducesTo_S8x4096x64_S_d0_1_2 h_S_) main_v16 main_c_5
  let main_v18 : IVec S_ 1 := andi main_v13 main_v17
  let main_v19 : FVec F S8x64x4096 .f32 := Host.absf main_arg5
  let main_cst_6 : FVec F S_ .f32 := constant S_ .f32 0x7F800000#32
  let main_v20 : FVec F S8x64x4096 .f32 := broadcastInDim S8x64x4096 ![] bcast_S_S8x64x4096 main_cst_6
  let main_v21 : IVec S8x64x4096 1 := cmpf .olt main_v19 main_v20
  let main_c_7 : IVec S_ 1 := constantI S_ 1 1#1
  let main_v22 : IVec S_ 1 := (fun x v => Host.reduce IntOp.andi x v reducesTo_S8x64x4096_S_d0_1_2 h_S_) main_v21 main_c_7
  let main_v23 : IVec S_ 1 := andi main_v18 main_v22
  let main_c_8 : IVec S_ 32 := constantI S_ 32 0#32
  let main_v24 : IVec S8 32 := broadcastInDim S8 ![] bcast_S_S8 main_c_8
  let main_v25 : IVec S8 1 := cmpi .sge main_arg1 main_v24
  let main_c_9 : IVec S_ 1 := constantI S_ 1 1#1
  let main_v26 : IVec S_ 1 := (fun x v => Host.reduce IntOp.andi x v reducesTo_S8_S_d0 h_S_) main_v25 main_c_9
  let main_v27 : IVec S_ 1 := andi main_v23 main_v26
  main_v27

def fn {F : FTy → Type} [FloatOps F] (main_arg0 : FVec F S8x2048x4096 .f32) (main_arg1 : IVec S8 32) (main_arg2 : FVec F S4096x4096 .f32) (main_arg3 : FVec F S4096 .f32) (main_arg4 : FVec F S8x4096x64 .f32) (main_arg5 : FVec F S8x64x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4096x64 .f32 := Host.absf main_arg4
  let main_cst_4 : FVec F S_ .f32 := constant S_ .f32 0x7F800000#32
  let main_v15 : FVec F S8x4096x64 .f32 := broadcastInDim S8x4096x64 ![] bcast_S_S8x4096x64 main_cst_4
  let main_v16 : IVec S8x4096x64 1 := cmpf .olt main_v14 main_v15
  fn_part1 (F := F) main_arg1 main_arg5 main_v13 main_v16
-- ==== Kernel.lean ====
abbrev S8x2048x4096 : Shape := ⟨3, ![8, 2048, 4096]⟩
abbrev S8 : Shape := ⟨1, ![8]⟩
abbrev S4096x4096 : Shape := ⟨2, ![4096, 4096]⟩
abbrev S4096 : Shape := ⟨1, ![4096]⟩
abbrev S8x4096x64 : Shape := ⟨3, ![8, 4096, 64]⟩
abbrev S8x64x4096 : Shape := ⟨3, ![8, 64, 4096]⟩
abbrev S_ : Shape := ⟨0, ![]⟩
abbrev S1x4096 : Shape := ⟨2, ![1, 4096]⟩
abbrev S1x256x4096 : Shape := ⟨3, ![1, 256, 4096]⟩
abbrev S4096x1024 : Shape := ⟨2, ![4096, 1024]⟩
abbrev S1x1024 : Shape := ⟨2, ![1, 1024]⟩
abbrev S1x4096x64 : Shape := ⟨3, ![1, 4096, 64]⟩
abbrev S1 : Shape := ⟨1, ![1]⟩
abbrev S1x64x1024 : Shape := ⟨3, ![1, 64, 1024]⟩
abbrev S1x256x1024 : Shape := ⟨3, ![1, 256, 1024]⟩
abbrev S256x4096 : Shape := ⟨2, ![256, 4096]⟩
abbrev S4096x64 : Shape := ⟨2, ![4096, 64]⟩
abbrev S64x1024 : Shape := ⟨2, ![64, 1024]⟩
abbrev S256x1024 : Shape := ⟨2, ![256, 1024]⟩
abbrev S256x64 : Shape := ⟨2, ![256, 64]⟩

abbrev nBuf : Space → Nat
  | .hbm => 19
  | .vmem => 12
  | .smem => 1
  | _ => 0

abbrev bufTy : (tb : Table) → Fin (tcTables nBuf tb) → BufTy
  | .hbm, ⟨0, _⟩ => ⟨S8x2048x4096, .f32⟩
  | .hbm, ⟨1, _⟩ => ⟨S8, .i32⟩
  | .hbm, ⟨2, _⟩ => ⟨S4096x4096, .f32⟩
  | .hbm, ⟨3, _⟩ => ⟨S4096, .f32⟩
  | .hbm, ⟨4, _⟩ => ⟨S8x4096x64, .f32⟩
  | .hbm, ⟨5, _⟩ => ⟨S8x64x4096, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S1x4096, .f32⟩
  | .hbm, ⟨14, _⟩ => ⟨S4096x4096, .bf16⟩
  | .hbm, ⟨15, _⟩ => ⟨S4096x4096, .bf16⟩
  | .hbm, ⟨16, _⟩ => ⟨S8x4096x64, .bf16⟩
  | .hbm, ⟨17, _⟩ => ⟨S8x64x4096, .bf16⟩
  | .hbm, ⟨18, _⟩ => ⟨S8x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1x4096x64, .bf16⟩
  | .local _ .vmem, ⟨7, _⟩ => ⟨S1x4096x64, .bf16⟩
  | .local _ .vmem, ⟨8, _⟩ => ⟨S1x64x1024, .bf16⟩
  | .local _ .vmem, ⟨9, _⟩ => ⟨S1x64x1024, .bf16⟩
  | .local _ .vmem, ⟨10, _⟩ => ⟨S1x256x1024, .f32⟩
  | .local _ .vmem, ⟨11, _⟩ => ⟨S1x256x1024, .f32⟩
  | .local _ .smem, ⟨0, _⟩ => ⟨S8, .i32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 8], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S8) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S8) ![v0.toNat] S1.size (k0_off1_inb i)) numel1_S1
  let c0_i32 : BitVec 32 := 0#32
  let c0_i32_0 : BitVec 32 := 0#32
  ![v1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bcast_S_S8 : S_.BroadcastsInDim S8 (![] : Fin 0 → Fin S8.rank)
  shapeCasts_S4096_S1x4096 : S4096.ShapeCasts S1x4096
  bitsLt_bf16_f32 : FTy.bits .bf16 < FTy.bits .f32
  transposes_S4096x4096_S4096x4096_1_0 : S4096x4096.Transposes [1, 0] S4096x4096
  numel1_S1 : S1.numel = 1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S256x4096_S4096x1024_S256x1024_1_0_0_1_n_n_wf : DotDims.WF S256x4096 S4096x1024 S256x1024 [1] [0] [0] [1] [] []
  dot_S256x4096_S4096x64_S256x64_1_0_0_1_n_n_wf : DotDims.WF S256x4096 S4096x64 S256x64 [1] [0] [0] [1] [] []
  dot_S256x64_S64x1024_S256x1024_1_0_0_1_n_n_wf : DotDims.WF S256x64 S64x1024 S256x1024 [1] [0] [0] [1] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x2048x4096.size a
  hwx0_0 : ∀ i : grid0.Coords, EltTy.bits .f32 = 32 ∨ (Rect.block (s := S8x2048x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S8x2048x4096.size a
  hwx0_5 : ∀ i : grid0.Coords, EltTy.bits .f32 = 32 ∨ (Rect.block (s := S8x2048x4096) S1x256x1024.size (cc0_transform_5 i) (hinb0_5 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf

abbrev spec0_0 : Pipeline.WinSpec sig grid0.rank :=
  Pipeline.WinSpec.ofSpec (Memref.whole main_arg0) S1x256x4096.size reads0_0 false false 2 stage0_0 sem0_0 nbuf0_0 hstage0_0

abbrev spec0_1 : Pipeline.WinSpec sig grid0.rank :=
  Pipeline.WinSpec.ofSpec (Memref.whole main_v3) S4096x1024.size reads0_1 false false 2 stage0_1 sem0_1 nbuf0_1 hstage0_1

abbrev spec0_2 : Pipeline.WinSpec sig grid0.rank :=
  Pipeline.WinSpec.ofSpec (Memref.whole main_v1) S1x1024.size reads0_2 false false 2 stage0_2 sem0_2 nbuf0_2 hstage0_2

abbrev spec0_3 : Pipeline.WinSpec sig grid0.rank :=
  Pipeline.WinSpec.ofSpec (Memref.whole main_v4) S1x4096x64.size reads0_3 false false 2 stage0_3 sem0_3 nbuf0_3 hstage0_3

abbrev spec0_4 : Pipeline.WinSpec sig grid0.rank :=
  Pipeline.WinSpec.ofSpec (Memref.whole main_v5) S1x64x1024.size reads0_4 false false 2 stage0_4 sem0_4 nbuf0_4 hstage0_4

abbrev spec0_5 : Pipeline.WinSpec sig grid0.rank :=
  Pipeline.WinSpec.ofSpec (Memref.whole main_v6) S1x256x1024.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 k0_off1_inb numel1_S1 pf | 4 => cc0_transform_4 k0_off1_inb numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 pf | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_3 k0_off1_inb numel1_S1 pf i a + 1) * S1x4096x64.size a ≤ S8x4096x64.size a), EltTy.bits .bf16 = 32 ∨ (Rect.block (s := S8x4096x64) S1x4096x64.size (cc0_transform_3 k0_off1_inb numel1_S1 pf i) h).WholeWords (EltTy.packing .bf16)) ∧
  (∀ i : grid0.Coords, ∃ h : (∀ a, (cc0_transform_4 k0_off1_inb numel1_S1 pf i a + 1) * S1x64x1024.size a ≤ S8x64x4096.size a), EltTy.bits .bf16 = 32 ∨ (Rect.block (s := S8x64x4096) S1x64x1024.size (cc0_transform_4 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => fun i a => (hok.1 i).elim fun h _ => h a | 4 => fun i a => (hok.2 i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => fun i => (hok.1 i).elim fun _ h => h | 4 => fun i => (hok.2 i).elim fun _ h => h | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S8x2048x4096 : Shape := ⟨3, ![8, 2048, 4096]⟩
abbrev S8 : Shape := ⟨1, ![8]⟩
abbrev S4096x4096 : Shape := ⟨2, ![4096, 4096]⟩
abbrev S4096 : Shape := ⟨1, ![4096]⟩
abbrev S8x4096x64 : Shape := ⟨3, ![8, 4096, 64]⟩
abbrev S8x64x4096 : Shape := ⟨3, ![8, 64, 4096]⟩
abbrev S1x1x4096 : Shape := ⟨3, ![1, 1, 4096]⟩
abbrev S_ : Shape := ⟨0, ![]⟩
abbrev S8x1 : Shape := ⟨2, ![8, 1]⟩
abbrev S8x2048x64 : Shape := ⟨3, ![8, 2048, 64]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8, .i32⟩
  | .hbm, ⟨2, _⟩ => ⟨S4096x4096, .f32⟩
  | .hbm, ⟨3, _⟩ => ⟨S4096, .f32⟩
  | .hbm, ⟨4, _⟩ => ⟨S8x4096x64, .f32⟩
  | .hbm, ⟨5, _⟩ => ⟨S8x64x4096, .f32⟩
  | .hbm, ⟨6, _⟩ => ⟨S8x2048x4096, .f32⟩
  | .hbm, ⟨7, _⟩ => ⟨S1x1x4096, .f32⟩
  | .hbm, ⟨8, _⟩ => ⟨S8x2048x4096, .f32⟩
  | .hbm, ⟨9, _⟩ => ⟨S8x2048x4096, .f32⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S8x1, .i32⟩
  | .hbm, ⟨18, _⟩ => ⟨S8x4096x64, .f32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S8x1, .i32⟩
  | .hbm, ⟨27, _⟩ => ⟨S8x64x4096, .f32⟩
  | .hbm, ⟨28, _⟩ => ⟨S8x2048x64, .f32⟩
  | .hbm, ⟨29, _⟩ => ⟨S8x2048x4096, .f32⟩
  | .hbm, ⟨30, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8 : S_.BroadcastsInDim S8 (![] : Fin 0 → Fin S8.rank)
  bcast_S8_S8x1_0 : S8.BroadcastsInDim S8x1 (![0] : Fin 1 → Fin S8x1.rank)
  dot_S8x2048x4096_S4096x4096_S8x2048x4096_2_1_01_0_n_n_wf : DotDims.WF S8x2048x4096 S4096x4096 S8x2048x4096 [2] [1] [0, 1] [0] [] []
  gather_S8x4096x64_S8x1_S8x4096x64_12_0_n_n_0_1_1409664_wf : GatherDims.WF S8x4096x64 S8x1 S8x4096x64 [1, 2] [0] [] [0] [] 1 ![1, 4096, 64]
  gather_S8x64x4096_S8x1_S8x64x4096_12_0_n_n_0_1_1644096_wf : GatherDims.WF S8x64x4096 S8x1 S8x64x4096 [1, 2] [0] [] [0] [] 1 ![1, 64, 4096]
  dot_S8x2048x4096_S8x4096x64_S8x2048x64_2_1_1_2_0_0_wf : DotDims.WF S8x2048x4096 S8x4096x64 S8x2048x64 [2] [1] [1] [2] [0] [0]
  dot_S8x2048x64_S8x64x4096_S8x2048x4096_2_1_1_2_0_0_wf : DotDims.WF S8x2048x64 S8x64x4096 S8x2048x4096 [2] [1] [1] [2] [0] [0]

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def gather_S8x4096x64_S8x1_S8x4096x64_12_0_n_n_0_1_1409664 : GatherDims S8x4096x64 S8x1 S8x4096x64 where
  offsetDims := [1, 2]
  collapsedSliceDims := [0]
  operandBatchingDims := []
  startIndicesBatchingDims := []
  startIndexMap := [0]
  indexVectorDim := 1
  sliceSizes := ![1, 4096, 64]
  wf := gather_S8x4096x64_S8x1_S8x4096x64_12_0_n_n_0_1_1409664_wf
def gather_S8x64x4096_S8x1_S8x64x4096_12_0_n_n_0_1_1644096 : GatherDims S8x64x4096 S8x1 S8x64x4096 where
  offsetDims := [1, 2]
  collapsedSliceDims := [0]
  operandBatchingDims := []
  startIndicesBatchingDims := []
  startIndexMap := [0]
  indexVectorDim := 1
  sliceSizes := ![1, 64, 4096]
  wf := gather_S8x64x4096_S8x1_S8x64x4096_12_0_n_n_0_1_1644096_wf
def dot_S8x2048x4096_S8x4096x64_S8x2048x64_2_1_1_2_0_0 : DotDims S8x2048x4096 S8x4096x64 S8x2048x64 where
  lhsContracting := [2]
  rhsContracting := [1]
  lhsNonContracting := [1]
  rhsNonContracting := [2]
  lhsBatch := [0]
  rhsBatch := [0]
  wf := dot_S8x2048x4096_S8x4096x64_S8x2048x64_2_1_1_2_0_0_wf
def dot_S8x2048x64_S8x64x4096_S8x2048x4096_2_1_1_2_0_0 : DotDims S8x2048x64 S8x64x4096 S8x2048x4096 where
  lhsContracting := [2]
  rhsContracting := [1]
  lhsNonContracting := [1]
  rhsNonContracting := [2]
  lhsBatch := [0]
  rhsBatch := [0]
  wf := dot_S8x2048x64_S8x64x4096_S8x2048x4096_2_1_1_2_0_0_wf

class Facts : Prop extends Facts₀ where

variable [Facts]
-- ==== Proof.LoraSpec.lean ====
/-
  The function both programs compute, on the extended reals. For a batch row b, a sequence position s and an output
  feature o,

    y[b, s, o] = (Σ_k x[b, s, k] · W[o, k] + bias[o]) + Σ_r (Σ_k x[b, s, k] · A[e_b, k, r]) · B[e_b, r, o],

  the base linear map plus the low-rank update of the adapter e_b that row b selects. The adapter is the row's
  signed id word clamped into 0 … 7: `adapter`. The sums are finite sums of extended reals, written over the
  coordinates; the grouping (base + bias first, then the update; the inner sum over k taken before the product with B)
  is the grouping both programs use, so no law of the extended reals beyond reading each operation at an index is
  needed to meet it.
-/
import Idealize.ShloMosaic.PureOps.Ideal
import Idealize.ShloMosaic.Lib.ValueIdx

noncomputable section

open scoped BigOperators

namespace Cert.LoraLinear

open Idealize.ShloMosaic Idealize.ShloMosaic.ValueIdx

/-- The adapter a signed 32-bit id selects: the id clamped into 0 … 7 (a negative id gives 0, an id above 7 gives 7). -/
def adapter (w : BitVec 32) : Fin 8 := ⟨min w.toInt.toNat 7, Nat.lt_succ_of_le (Nat.min_le_right _ _)⟩

theorem adapter_val (w : BitVec 32) : (adapter w).val = min w.toInt.toNat 7 := rfl

/-- The result at coordinates (b, s, o), with the row's adapter e given. -/
def loraAt (x : (⟨3, ![8, 2048, 4096]⟩ : Shape).Idx → EReal) (W : (⟨2, ![4096, 4096]⟩ : Shape).Idx → EReal)
    (bias : (⟨1, ![4096]⟩ : Shape).Idx → EReal) (A : (⟨3, ![8, 4096, 64]⟩ : Shape).Idx → EReal)
    (B : (⟨3, ![8, 64, 4096]⟩ : Shape).Idx → EReal) (e : Fin 8) (b : Fin 8) (s : Fin 2048) (o : Fin 4096) : EReal :=
  ((∑ k : Fin 4096, x (ix3 b s k) * W (ix2 o k)) + bias (ix1 o))
    + ∑ r : Fin 64, (∑ k : Fin 4096, x (ix3 b s k) * A (ix3 e k r)) * B (ix3 e r o)

/-- THE SPECIFICATION: the whole result array as one function of the six argument arrays. -/
def loraLinear (x : (⟨3, ![8, 2048, 4096]⟩ : Shape).Idx → EReal) (ids : (⟨1, ![8]⟩ : Shape).Idx → BitVec 32)
    (W : (⟨2, ![4096, 4096]⟩ : Shape).Idx → EReal) (bias : (⟨1, ![4096]⟩ : Shape).Idx → EReal)
    (A : (⟨3, ![8, 4096, 64]⟩ : Shape).Idx → EReal) (B : (⟨3, ![8, 64, 4096]⟩ : Shape).Idx → EReal) :
    (⟨3, ![8, 2048, 4096]⟩ : Shape).Idx → EReal :=
  fun j => loraAt x W bias A B (adapter (ids (ix1 (j 0)))) (j 0) (j 1) (j 2)

/-! ## The id word, as each program reads it -/

/-- jnp's clip of a word to [0, 7] — the lower bound first, then the upper — has the clamped id as its unsigned
    value, for EVERY word: a negative word goes to 0, which is what its signed value read as a natural is. -/
theorem clip_toNat (w : BitVec 32) : (IntOp.minsi 7#32 (IntOp.maxsi 0#32 w)).toNat = min w.toInt.toNat 7 := by
  have h0 : (0#32 : BitVec 32).toInt = 0 := by decide
  have h7 : (7#32 : BitVec 32).toInt = 7 := by decide
  have h7n : (7#32 : BitVec 32).toNat = 7 := by decide
  have h0n : (0#32 : BitVec 32).toNat = 0 := by decide
  have h32 := w.isLt
  have hw := BitVec.toInt_eq_toNat_cond w
  unfold IntOp.maxsi
  by_cases hneg : w.slt 0#32 = true
  · rw [if_pos hneg]
    unfold IntOp.minsi
    rw [if_neg (by decide)]
    have hlt : w.toInt < 0 := by simpa [BitVec.slt, h0] using hneg
    rw [h0n]
    have : w.toInt.toNat = 0 := Int.toNat_of_nonpos (by omega)
    rw [this]; rfl
  · rw [if_neg hneg]
    have hge : 0 ≤ w.toInt := by
      have : ¬ (w.toInt < 0) := by simpa [BitVec.slt, h0] using hneg
      omega
    have hnat : (w.toInt.toNat : Int) = w.toInt := Int.toNat_of_nonneg hge
    unfold IntOp.minsi
    by_cases h7w : (7#32 : BitVec 32).slt w = true
    · rw [if_pos h7w]
      have : 7 < w.toInt := by simpa [BitVec.slt, h7] using h7w
      rw [h7n]; omega
    · rw [if_neg h7w]
      have : ¬ (7 < w.toInt) := by simpa [BitVec.slt, h7] using h7w
      split at hw <;> omega

/-- So the clipped word always names one of the eight adapters. -/
theorem clip_lt (w : BitVec 32) : (IntOp.minsi 7#32 (IntOp.maxsi 0#32 w)).toNat < 8 := by
  rw [clip_toNat]; omega

/-- A word that is not negative is not wrapped by jnp's negative-index rule `w < 0 ? w + 8 : w`. -/
theorem wrap_of_nonneg (w : BitVec 32) (h : IntOp.cmpi .sge w 0#32 = 1#1) :
    Scalar.select (IntOp.cmpi .slt w 0#32) (IntOp.addi w 8#32) w = w := by
  refine if_neg (fun h' => ?_)
  have h1 : BitVec.ofBool ((0#32 : BitVec 32).sle w) = 1#1 := h
  have h2 : BitVec.ofBool (w.slt 0#32) = 1#1 := h'
  have hb : ∀ b : Bool, BitVec.ofBool b = 1#1 ↔ b = true := by intro b; cases b <;> decide
  have h0 : (0#32 : BitVec 32).toInt = 0 := by decide
  rw [hb] at h1 h2
  simp only [BitVec.slt, BitVec.sle, decide_eq_true_eq, h0] at h1 h2
  omega

end Cert.LoraLinear

end
-- ==== Proof.IdsNonneg.lean ====
/-
  The precondition, read back: every id word is non-negative.

  The printed precondition is the conjunction of five finiteness tests and of `all (ids ≥ 0)`, each `all` a reduction
  by `and` from 1; the claim states that the conjunction is 1. The last conjunct being 1, every element of the
  comparison `ids ≥ 0` (signed) is 1.
-/
import proofs.«405034_j27504970564261_3_alg».proof.Pre_finite_inputs
import Idealize.ShloMosaic.Lib.ReduceAll
import Idealize.ShloMosaic.Lib.ValueIdx

noncomputable section

namespace Cert.LoraLinear

open Idealize.ShloMosaic

variable [Cert.Pre_finite_inputs.Facts]

/-- The scalar shape has one index. -/
instance scalarIdxSubsingleton : Subsingleton Cert.Pre_finite_inputs.S_.Idx := ⟨fun a b => funext fun d => d.elim0⟩

/-- Under the precondition each of the eight id words is ≥ 0 as a signed word. -/
theorem ids_nonneg {F : FTy → Type} [FloatOps F] (a0 : FVec F Cert.Pre_finite_inputs.S8x2048x4096 .f32)
    (a1 : IVec Cert.Pre_finite_inputs.S8 32) (a2 : FVec F Cert.Pre_finite_inputs.S4096x4096 .f32)
    (a3 : FVec F Cert.Pre_finite_inputs.S4096 .f32) (a4 : FVec F Cert.Pre_finite_inputs.S8x4096x64 .f32)
    (a5 : FVec F Cert.Pre_finite_inputs.S8x64x4096 .f32)
    (h : Cert.Pre_finite_inputs.fn (F := F) a0 a1 a2 a3 a4 a5 = fun _ => 1#1) (i : Cert.Pre_finite_inputs.S8.Idx) :
    IntOp.cmpi .sge (a1 i) 0#32 = 1#1 := by
  have e := congrFun h ValueIdx.ix0
  unfold Cert.Pre_finite_inputs.fn Cert.Pre_finite_inputs.fn_part1 at e
  dsimp only at e
  have e26 := (IntOp.andi_eq_one.1 e).2
  exact Host.reduce_andi_all _ _ _ _ _ e26 i

end Cert.LoraLinear

end
-- ==== Proof.AdapterTable.lean ====
/-
  The adapter table the kernel prefetches, and the arrays @main prepares before the launch.

  The pallas_call's one prefetched table is jnp's clip of the eight id words to [0, 7]. Whatever the ids are, each
  table word, read unsigned, is the row's id clamped into 0 … 7 (`Cert.LoraLinear.clip_toNat`): so the blocks the two
  table-indexed windows fetch — adapter e's [4096, 64] slab of A and the [64, 1024] column tile of its slab of B — lie
  inside their arrays at every grid point, and their transfers move whole words (a bf16 word packs two rows; both
  blocks have an even number of rows). That is the pipeline's side condition on the table, for every memory: `ok`.
  It needs nothing of the precondition: the kernel's own clip is what puts the words in range.

  The index maps read the table at the grid's middle coordinate b (the batch row): `word_eq`, `ixA_eq`, `ixB_eq`.
  The other arrays the launch stages that @main computes first: the bias as a [1, 4096] row, the weight converted and
  transposed, the two adapter tables converted (`V_bias`, `V_weight`, `V_A`, `V_B`).

  Everything here is for any float instance F: it is used at the word level for the kernel's frame and at the ideal
  instance for its value.
-/
import proofs.«405034_j27504970564261_3_alg».proof.Proof.Gen.KernelIdeal.Frame
import proofs.«405034_j27504970564261_3_alg».proof.Proof.LoraSpec
import Idealize.ShloMosaic.Lib.StableHlo.Run
import Idealize.ShloMosaic.Lib.Affine
import Idealize.ShloMosaic.Lib.ValueIdx

set_option maxRecDepth 16384

noncomputable section

namespace Cert.KernelIdeal.Tables

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- The eight id words, as launched (the program runs on one device). -/
abbrev ids : S8.Idx → BitVec 32 := m (((0 : Dev nD) : Thread nD τ).loc main_arg1)

/-- The table holds the clipped ids: the lower bound 0 applied first, then the upper bound 7. -/
theorem tbl_eq : tbl m 0 = fun x => IntOp.minsi 7#32 (IntOp.maxsi 0#32 (ids m x)) := by
  unfold tbl
  show V m 0 main_v0 = _
  dsimp only [V]
  simp only [hostOps0, hostOps0_1, hostOps0_2, List.flatten_cons, List.flatten_nil, List.append_nil, List.cons_append, List.nil_append]
  after_results
  rfl

/-- A table word read unsigned is the adapter the row's id selects. -/
theorem tbl_toNat (x : S8.Idx) : (tbl m 0 x).toNat = (Cert.LoraLinear.adapter (ids m x)).val := by
  rw [tbl_eq]; exact Cert.LoraLinear.clip_toNat _

theorem tbl_lt (x : S8.Idx) : (tbl m 0 x).toNat < 8 := by
  rw [tbl_toNat]; exact (Cert.LoraLinear.adapter _).isLt

/-- The word an index map loads at grid coordinates i is the table's word of batch row i 1: the offset is the
    coordinate itself, and the one-element rectangle's first index adds nothing. -/
theorem word_eq (i : grid0.Coords) :
    (tbl m).at 0 (Rect.unit (s := S8) ![(Scalar.indexCast (BitVec.ofNat 32 (i 1).val)).toNat] S1.size (k0_off1_inb i)) numel1_S1
      = tbl m 0 (ix1 (i 1)) := by
  refine congrArg (tbl m 0) (funext fun a => Fin.ext ?_)
  have hi : (i 1).val < 8 := (i 1).isLt
  match a with
  | ⟨0, _⟩ =>
    show (Scalar.indexCast (BitVec.ofNat 32 (i 1).val)).toNat + 1 * (Shape.Idx.first (numel1_S1.symm ▸ Nat.one_pos) (0 : Fin 1)).val = (i 1).val
    have h0 : (Shape.Idx.first (s := S1) (numel1_S1.symm ▸ Nat.one_pos) (0 : Fin 1)).val = 0 := by
      have := (Shape.Idx.first (s := S1) (numel1_S1.symm ▸ Nat.one_pos) (0 : Fin 1)).isLt
      have e : S1.size (0 : Fin 1) = 1 := by decide
      omega
    have h1 : (Scalar.indexCast (BitVec.ofNat 32 (i 1).val)).toNat = (i 1).val := by
      show (BitVec.ofNat 32 (i 1).val).toNat = _
      rw [BitVec.toNat_ofNat]; omega
    rw [h0, h1]; omega

/-- The A window's block index at coordinates (j, b, i): (table word of b, 0, 0). -/
theorem ixA_eq (i : grid0.Coords) :
    cc0_transform_3 k0_off1_inb numel1_S1 (tbl m) i = ![(tbl m 0 (ix1 (i 1))).toNat, 0, 0] := by
  unfold cc0_transform_3
  dsimp only
  rw [word_eq]
  rfl

/-- The B window's block index at coordinates (j, b, i): (table word of b, 0, j). -/
theorem ixB_eq (i : grid0.Coords) :
    cc0_transform_4 k0_off1_inb numel1_S1 (tbl m) i = ![(tbl m 0 (ix1 (i 1))).toNat, 0, (i 0).val] := by
  unfold cc0_transform_4
  dsimp only
  rw [word_eq]
  have hi : (i 0).val < 4 := (i 0).isLt
  have h1 : (BitVec.ofNat 32 (i 0).val).toNat = (i 0).val := by rw [BitVec.toNat_ofNat]; omega
  rw [h1]
  rfl

/-- THE SIDE CONDITION on the table, for every memory: both table-indexed blocks inside their arrays, their transfers
    whole words. -/
theorem ok : Ok m := by
  refine ⟨fun i => ?_, fun i => ?_⟩
  · refine ⟨fun a => ?_, .inr (Affine.block_words_dvd (of_decide_eq_true rfl) (by decide))⟩
    rw [ixA_eq]
    have := tbl_lt m (ix1 (i 1))
    fin_cases a <;> simp [S1x4096x64, S8x4096x64] <;> omega
  · refine ⟨fun a => ?_, .inr (Affine.block_words_dvd (of_decide_eq_true rfl) (by decide))⟩
    rw [ixB_eq]
    have := tbl_lt m (ix1 (i 1))
    have hi : (i 0).val < 4 := (i 0).isLt
    fin_cases a <;> simp [S1x64x1024, S8x64x4096] <;> omega

/-! ## The arrays @main writes before the launch -/

/-- The bias as the launch finds it: reshaped to one row. -/
theorem V_bias (c : Dev nD) :
    V m c main_v1 = shapeCast S1x4096 (m ((c : Thread nD τ).loc main_arg3)) shapeCasts_S4096_S1x4096 := by
  dsimp only [V]
  simp only [hostOps0, hostOps0_1, hostOps0_2, List.flatten_cons, List.flatten_nil, List.append_nil, List.cons_append, List.nil_append]
  after_results
  rfl

/-- The weight as the launch finds it: converted to bf16, then transposed to [in, out]. -/
theorem V_weight (c : Dev nD) :
    V m c main_v3 = transpose S4096x4096 [1, 0] (truncf .bf16 (m ((c : Thread nD τ).loc main_arg2)) bitsLt_bf16_f32)
      transposes_S4096x4096_S4096x4096_1_0 := by
  dsimp only [V]
  simp only [hostOps0, hostOps0_1, hostOps0_2, List.flatten_cons, List.flatten_nil, List.append_nil, List.cons_append, List.nil_append]
  after_results

/-- The A table as the launch finds it: converted to bf16. -/
theorem V_A (c : Dev nD) : V m c main_v4 = truncf .bf16 (m ((c : Thread nD τ).loc main_arg4)) bitsLt_bf16_f32 := by
  dsimp only [V]
  simp only [hostOps0, hostOps0_1, hostOps0_2, List.flatten_cons, List.flatten_nil, List.append_nil, List.cons_append, List.nil_append]
  after_results

/-- The B table as the launch finds it: converted to bf16. -/
theorem V_B (c : Dev nD) : V m c main_v5 = truncf .bf16 (m ((c : Thread nD τ).loc main_arg5)) bitsLt_bf16_f32 := by
  dsimp only [V]
  simp only [hostOps0, hostOps0_1, hostOps0_2, List.flatten_cons, List.flatten_nil, List.append_nil, List.cons_append, List.nil_append]
  after_results

end Cert.KernelIdeal.Tables

end
-- ==== Proof.AdapterTableBits.lean ====
/-
  The adapter table the kernel prefetches, and the arrays @main prepares before the launch.

  The pallas_call's one prefetched table is jnp's clip of the eight id words to [0, 7]. Whatever the ids are, each
  table word, read unsigned, is the row's id clamped into 0 … 7 (`Cert.LoraLinear.clip_toNat`): so the blocks the two
  table-indexed windows fetch — adapter e's [4096, 64] slab of A and the [64, 1024] column tile of its slab of B — lie
  inside their arrays at every grid point, and their transfers move whole words (a bf16 word packs two rows; both
  blocks have an even number of rows). That is the pipeline's side condition on the table, for every memory: `ok`.
  It needs nothing of the precondition: the kernel's own clip is what puts the words in range.

  The index maps read the table at the grid's middle coordinate b (the batch row): `word_eq`, `ixA_eq`, `ixB_eq`.
  The other arrays the launch stages that @main computes first: the bias as a [1, 4096] row, the weight converted and
  transposed, the two adapter tables converted (`V_bias`, `V_weight`, `V_A`, `V_B`).

  Everything here is for any float instance F: it is used at the word level for the kernel's frame and at the ideal
  instance for its value.
-/
import proofs.«405034_j27504970564261_3_alg».proof.Proof.Gen.Kernel.Frame
import proofs.«405034_j27504970564261_3_alg».proof.Proof.LoraSpec
import Idealize.ShloMosaic.Lib.StableHlo.Run
import Idealize.ShloMosaic.Lib.Affine
import Idealize.ShloMosaic.Lib.ValueIdx

set_option maxRecDepth 16384

noncomputable section

namespace Cert.Kernel.Tables

open Cert.Kernel Cert.Kernel.Gen
open Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- The eight id words, as launched (the program runs on one device). -/
abbrev ids : S8.Idx → BitVec 32 := m (((0 : Dev nD) : Thread nD τ).loc main_arg1)

/-- The table holds the clipped ids: the lower bound 0 applied first, then the upper bound 7. -/
theorem tbl_eq : tbl m 0 = fun x => IntOp.minsi 7#32 (IntOp.maxsi 0#32 (ids m x)) := by
  unfold tbl
  show V m 0 main_v0 = _
  dsimp only [V]
  simp only [hostOps0, hostOps0_1, hostOps0_2, List.flatten_cons, List.flatten_nil, List.append_nil, List.cons_append, List.nil_append]
  after_results
  rfl

/-- A table word read unsigned is the adapter the row's id selects. -/
theorem tbl_toNat (x : S8.Idx) : (tbl m 0 x).toNat = (Cert.LoraLinear.adapter (ids m x)).val := by
  rw [tbl_eq]; exact Cert.LoraLinear.clip_toNat _

theorem tbl_lt (x : S8.Idx) : (tbl m 0 x).toNat < 8 := by
  rw [tbl_toNat]; exact (Cert.LoraLinear.adapter _).isLt

/-- The word an index map loads at grid coordinates i is the table's word of batch row i 1: the offset is the
    coordinate itself, and the one-element rectangle's first index adds nothing. -/
theorem word_eq (i : grid0.Coords) :
    (tbl m).at 0 (Rect.unit (s := S8) ![(Scalar.indexCast (BitVec.ofNat 32 (i 1).val)).toNat] S1.size (k0_off1_inb i)) numel1_S1
      = tbl m 0 (ix1 (i 1)) := by
  refine congrArg (tbl m 0) (funext fun a => Fin.ext ?_)
  have hi : (i 1).val < 8 := (i 1).isLt
  match a with
  | ⟨0, _⟩ =>
    show (Scalar.indexCast (BitVec.ofNat 32 (i 1).val)).toNat + 1 * (Shape.Idx.first (numel1_S1.symm ▸ Nat.one_pos) (0 : Fin 1)).val = (i 1).val
    have h0 : (Shape.Idx.first (s := S1) (numel1_S1.symm ▸ Nat.one_pos) (0 : Fin 1)).val = 0 := by
      have := (Shape.Idx.first (s := S1) (numel1_S1.symm ▸ Nat.one_pos) (0 : Fin 1)).isLt
      have e : S1.size (0 : Fin 1) = 1 := by decide
      omega
    have h1 : (Scalar.indexCast (BitVec.ofNat 32 (i 1).val)).toNat = (i 1).val := by
      show (BitVec.ofNat 32 (i 1).val).toNat = _
      rw [BitVec.toNat_ofNat]; omega
    rw [h0, h1]; omega

/-- The A window's block index at coordinates (j, b, i): (table word of b, 0, 0). -/
theorem ixA_eq (i : grid0.Coords) :
    cc0_transform_3 k0_off1_inb numel1_S1 (tbl m) i = ![(tbl m 0 (ix1 (i 1))).toNat, 0, 0] := by
  unfold cc0_transform_3
  dsimp only
  rw [word_eq]
  rfl

/-- The B window's block index at coordinates (j, b, i): (table word of b, 0, j). -/
theorem ixB_eq (i : grid0.Coords) :
    cc0_transform_4 k0_off1_inb numel1_S1 (tbl m) i = ![(tbl m 0 (ix1 (i 1))).toNat, 0, (i 0).val] := by
  unfold cc0_transform_4
  dsimp only
  rw [word_eq]
  have hi : (i 0).val < 4 := (i 0).isLt
  have h1 : (BitVec.ofNat 32 (i 0).val).toNat = (i 0).val := by rw [BitVec.toNat_ofNat]; omega
  rw [h1]
  rfl

/-- THE SIDE CONDITION on the table, for every memory: both table-indexed blocks inside their arrays, their transfers
    whole words. -/
theorem ok : Ok m := by
  refine ⟨fun i => ?_, fun i => ?_⟩
  · refine ⟨fun a => ?_, .inr (Affine.block_words_dvd (of_decide_eq_true rfl) (by decide))⟩
    rw [ixA_eq]
    have := tbl_lt m (ix1 (i 1))
    fin_cases a <;> simp [S1x4096x64, S8x4096x64] <;> omega
  · refine ⟨fun a => ?_, .inr (Affine.block_words_dvd (of_decide_eq_true rfl) (by decide))⟩
    rw [ixB_eq]
    have := tbl_lt m (ix1 (i 1))
    have hi : (i 0).val < 4 := (i 0).isLt
    fin_cases a <;> simp [S1x64x1024, S8x64x4096] <;> omega

/-! ## The arrays @main writes before the launch -/

/-- The bias as the launch finds it: reshaped to one row. -/
theorem V_bias (c : Dev nD) :
    V m c main_v1 = shapeCast S1x4096 (m ((c : Thread nD τ).loc main_arg3)) shapeCasts_S4096_S1x4096 := by
  dsimp only [V]
  simp only [hostOps0, hostOps0_1, hostOps0_2, List.flatten_cons, List.flatten_nil, List.append_nil, List.cons_append, List.nil_append]
  after_results
  rfl

/-- The weight as the launch finds it: converted to bf16, then transposed to [in, out]. -/
theorem V_weight (c : Dev nD) :
    V m c main_v3 = transpose S4096x4096 [1, 0] (truncf .bf16 (m ((c : Thread nD τ).loc main_arg2)) bitsLt_bf16_f32)
      transposes_S4096x4096_S4096x4096_1_0 := by
  dsimp only [V]
  simp only [hostOps0, hostOps0_1, hostOps0_2, List.flatten_cons, List.flatten_nil, List.append_nil, List.cons_append, List.nil_append]
  after_results

/-- The A table as the launch finds it: converted to bf16. -/
theorem V_A (c : Dev nD) : V m c main_v4 = truncf .bf16 (m ((c : Thread nD τ).loc main_arg4)) bitsLt_bf16_f32 := by
  dsimp only [V]
  simp only [hostOps0, hostOps0_1, hostOps0_2, List.flatten_cons, List.flatten_nil, List.append_nil, List.cons_append, List.nil_append]
  after_results

/-- The B table as the launch finds it: converted to bf16. -/
theorem V_B (c : Dev nD) : V m c main_v5 = truncf .bf16 (m ((c : Thread nD τ).loc main_arg5)) bitsLt_bf16_f32 := by
  dsimp only [V]
  simp only [hostOps0, hostOps0_1, hostOps0_2, List.flatten_cons, List.flatten_nil, List.append_nil, List.cons_append, List.nil_append]
  after_results

end Cert.Kernel.Tables

end
-- ==== Proof.BodyValue.lean ====
/-
  The kernel body's stored value, read at an index of its [1, 256, 1024] block.

  The body computes, from the five blocks it loads (an x-block [1, 256, 4096], a weight block [4096, 1024],
  the selected adapter's A block [1, 4096, 64] and B block [1, 64, 1024], a bias block [1, 1024]), three matrix
  products into zero accumulators, a row broadcast and two sums. With floats read as extended reals every format
  change is the identity, so at row s and column o the stored value is
      (Σ_k x[s,k]·W[k,o] + bias[o]) + Σ_r (Σ_k x[s,k]·A[k,r])·B[r,o].
  Each matrix product read at an index is the sum, over the one contracted coordinate, of the products of the
  operands' entries; each shape cast only drops or adds a leading unit axis (or is the identity), and the
  broadcast repeats the bias row down the 256 rows.
-/
import proofs.«405034_j27504970564261_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LoraLinear.Body

open Cert.KernelIdeal Cert.KernelIdeal.Gen
open Idealize.ShloMosaic Idealize.ShloMosaic.ValueIdx

/-! ## The [256, 4096] × [4096, 1024] product (x-block against the weight block) -/

/-- Its left operand's row coordinate is the result's row. -/
theorem lhs_mmW_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
/-- Its left operand's column coordinate is the contracted one. -/
theorem lhs_mmW_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
/-- Its right operand's row coordinate is the contracted one. -/
theorem rhs_mmW_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
/-- Its right operand's column coordinate is the result's column. -/
theorem rhs_mmW_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The product into a zero accumulator at (s, o): the sum over k of a[s,k]·b[k,o]. -/
theorem mmW_apply (a : FVec Ideal S256x4096 .bf16) (b : FVec Ideal S4096x1024 .bf16) (s : Fin 256) (o : Fin 1024) :
    matmul dot_S256x4096_S4096x1024_S256x1024_1_0_0_1_n_n none a b (constant (F := Ideal) S256x1024 .f32 0x00000000#32) (ix2 s o)
      = ∑ k : Fin 4096, a (ix2 s k) * b (ix2 k o) := by
  simp only [matmul]
  rw [Ideal.matmul_constant_zero_apply, ← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 s o) ((contrEquiv1 dot_S256x4096_S4096x1024_S256x1024_1_0_0_1_n_n 4096 rfl rfl).symm k) = ix2 s k := funext fun c => Fin.ext (by
    match c with
    | ⟨0, _⟩ => exact lhs_mmW_0 _ _
    | ⟨1, _⟩ => exact (lhs_mmW_1 _ _).trans hk)
  have er : dot_S256x4096_S4096x1024_S256x1024_1_0_0_1_n_n.rhsIdx (ix2 s o) ((contrEquiv1 dot_S256x4096_S4096x1024_S256x1024_1_0_0_1_n_n 4096 rfl rfl).symm k) = ix2 k o := funext fun c => Fin.ext (by
    match c with
    | ⟨0, _⟩ => exact (rhs_mmW_0 _ _).trans hk
    | ⟨1, _⟩ => exact rhs_mmW_1 _ _)
  rw [el, er]

/-! ## The [256, 4096] × [4096, 64] product (x-block against the A block) -/

/-- Its left operand's row coordinate is the result's row. -/
theorem lhs_mmA_0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
/-- Its left operand's column coordinate is the contracted one. -/
theorem lhs_mmA_1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
/-- Its right operand's row coordinate is the contracted one. -/
theorem rhs_mmA_0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
/-- Its right operand's column coordinate is the result's column. -/
theorem rhs_mmA_1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- The product into a zero accumulator at (s, o): the sum over k of a[s,k]·b[k,o]. -/
theorem mmA_apply (a : FVec Ideal S256x4096 .bf16) (b : FVec Ideal S4096x64 .bf16) (s : Fin 256) (o : Fin 64) :
    matmul dot_S256x4096_S4096x64_S256x64_1_0_0_1_n_n none a b (constant (F := Ideal) S256x64 .f32 0x00000000#32) (ix2 s o)
      = ∑ k : Fin 4096, a (ix2 s k) * b (ix2 k o) := by
  simp only [matmul]
  rw [Ideal.matmul_constant_zero_apply, ← Equiv.sum_comp (contrEquiv1 dot_S256x4096_S4096x64_S256x64_1_0_0_1_n_n 4096 rfl rfl).symm]
  refine Finset.sum_congr rfl fun k _ => ?_
  have hk := contrEquiv1_symm_val dot_S256x4096_S4096x64_S256x64_1_0_0_1_n_n 4096 rfl rfl k
  have el : dot_S256x4096_S4096x64_S256x64_1_0_0_1_n_n.lhsIdx (ix2 s o) ((contrEquiv1 dot_S256x4096_S4096x64_S256x64_1_0_0_1_n_n 4096 rfl rfl).symm k) = ix2 s k := funext fun c => Fin.ext (by
    match c with
    | ⟨0, _⟩ => exact lhs_mmA_0 _ _
    | ⟨1, _⟩ => exact (lhs_mmA_1 _ _).trans hk)
  have er : dot_S256x4096_S4096x64_S256x64_1_0_0_1_n_n.rhsIdx (ix2 s o) ((contrEquiv1 dot_S256x4096_S4096x64_S256x64_1_0_0_1_n_n 4096 rfl rfl).symm k) = ix2 k o := funext fun c => Fin.ext (by
    match c with
    | ⟨0, _⟩ => exact (rhs_mmA_0 _ _).trans hk
    | ⟨1, _⟩ => exact rhs_mmA_1 _ _)
  rw [el, er]

/-! ## The [256, 64] × [64, 1024] product (the rank-64 projection against the B block) -/

/-- Its left operand's row coordinate is the result's row. -/
theorem lhs_mmB_0 (i : S256x1024.Idx) (q : dot_S256x64_S64x1024_S256x1024_1_0_0_1_n_n.contr.Idx) :
    (dot_S256x64_S64x1024_S256x1024_1_0_0_1_n_n.lhsIdx i q 0).val = (i 0).val := by
  unfold DotDims.lhsIdx
  rw [dif_neg (show ¬(0 : Fin S256x64.rank) ∈ dot_S256x64_S64x1024_S256x1024_1_0_0_1_n_n.lhsBatch by decide), dif_pos (show (0 : Fin S256x64.rank) ∈ dot_S256x64_S64x1024_S256x1024_1_0_0_1_n_n.lhsNonContracting by decide)]
  rfl
/-- Its left operand's column coordinate is the contracted one. -/
theorem lhs_mmB_1 (i : S256x1024.Idx) (q : dot_S256x64_S64x1024_S256x1024_1_0_0_1_n_n.contr.Idx) :
    (dot_S256x64_S64x1024_S256x1024_1_0_0_1_n_n.lhsIdx i q 1).val = (q ⟨0, by decide⟩).val :=
  dot_S256x64_S64x1024_S256x1024_1_0_0_1_n_n.lhsIdx_val_of_single rfl i q
/-- Its right operand's row coordinate is the contracted one. -/
theorem rhs_mmB_0 (i : S256x1024.Idx) (q : dot_S256x64_S64x1024_S256x1024_1_0_0_1_n_n.contr.Idx) :
    (dot_S256x64_S64x1024_S256x1024_1_0_0_1_n_n.rhsIdx i q 0).val = (q ⟨0, by decide⟩).val :=
  dot_S256x64_S64x1024_S256x1024_1_0_0_1_n_n.rhsIdx_val_of_single rfl i q
/-- Its right operand's column coordinate is the result's column. -/
theorem rhs_mmB_1 (i : S256x1024.Idx) (q : dot_S256x64_S64x1024_S256x1024_1_0_0_1_n_n.contr.Idx) :
    (dot_S256x64_S64x1024_S256x1024_1_0_0_1_n_n.rhsIdx i q 1).val = (i 1).val := by
  unfold DotDims.rhsIdx
  rw [dif_neg (show ¬(1 : Fin S64x1024.rank) ∈ dot_S256x64_S64x1024_S256x1024_1_0_0_1_n_n.rhsBatch by decide), dif_pos (show (1 : Fin S64x1024.rank) ∈ dot_S256x64_S64x1024_S256x1024_1_0_0_1_n_n.rhsNonContracting by decide)]
  rfl

/-- The product into a zero accumulator at (s, o): the sum over k of a[s,k]·b[k,o]. -/
theorem mmB_apply (a : FVec Ideal S256x64 .bf16) (b : FVec Ideal S64x1024 .bf16) (s : Fin 256) (o : Fin 1024) :
    matmul dot_S256x64_S64x1024_S256x1024_1_0_0_1_n_n none a b (constant (F := Ideal) S256x1024 .f32 0x00000000#32) (ix2 s o)
      = ∑ k : Fin 64, a (ix2 s k) * b (ix2 k o) := by
  simp only [matmul]
  rw [Ideal.matmul_constant_zero_apply, ← Equiv.sum_comp (contrEquiv1 dot_S256x64_S64x1024_S256x1024_1_0_0_1_n_n 64 rfl rfl).symm]
  refine Finset.sum_congr rfl fun k _ => ?_
  have hk := contrEquiv1_symm_val dot_S256x64_S64x1024_S256x1024_1_0_0_1_n_n 64 rfl rfl k
  have el : dot_S256x64_S64x1024_S256x1024_1_0_0_1_n_n.lhsIdx (ix2 s o) ((contrEquiv1 dot_S256x64_S64x1024_S256x1024_1_0_0_1_n_n 64 rfl rfl).symm k) = ix2 s k := funext fun c => Fin.ext (by
    match c with
    | ⟨0, _⟩ => exact lhs_mmB_0 _ _
    | ⟨1, _⟩ => exact (lhs_mmB_1 _ _).trans hk)
  have er : dot_S256x64_S64x1024_S256x1024_1_0_0_1_n_n.rhsIdx (ix2 s o) ((contrEquiv1 dot_S256x64_S64x1024_S256x1024_1_0_0_1_n_n 64 rfl rfl).symm k) = ix2 k o := funext fun c => Fin.ext (by
    match c with
    | ⟨0, _⟩ => exact (rhs_mmB_0 _ _).trans hk
    | ⟨1, _⟩ => exact rhs_mmB_1 _ _)
  rw [el, er]

/-! ## The stored value -/

/-- The stored block at row s and column o: the x-block's row s against column o of the weight block, plus the
    bias block's entry o, plus the row's rank-64 projection (x-block row s against the A block) against column o of
    the B block. -/
theorem body_apply (v0 : Vec Ideal S1x256x4096 .f32) (v3 : Vec Ideal S4096x1024 .bf16) (v5 : Vec Ideal S1x4096x64 .bf16)
    (v7 : Vec Ideal S1x64x1024 .bf16) (v9 : Vec Ideal S1x1024 .f32) (s : Fin 256) (o : Fin 1024) :
    k0_pay1 (F := Ideal) v0 v3 v5 v7 v9 (ix3 (0 : Fin 1) s o)
      = ((∑ k : Fin 4096, v0 (ix3 (0 : Fin 1) s k) * v3 (ix2 k o)) + v9 (ix2 (0 : Fin 1) o))
        + ∑ r : Fin 64, (∑ k : Fin 4096, v0 (ix3 (0 : Fin 1) s k) * v5 (ix3 (0 : Fin 1) k r)) * v7 (ix3 (0 : Fin 1) r o) := by
  unfold k0_pay1
  -- the last cast only adds the leading unit axis
  refine (shapeCast_ab_1ab_apply _ shapeCasts_S256x1024_S1x256x1024 (0 : Fin 1) s o).trans ?_
  -- the two sums are pointwise; the outer products are sums over the contracted coordinate; the bias row is repeated
  rw [addf_apply, addf_apply, mmW_apply, mmB_apply, broadcastTo_1b_ab_apply]
  -- format changes are the identity, the remaining casts drop a leading unit axis or do nothing, and the inner
  -- product is again a sum over its contracted coordinate
  simp only [truncf_apply, shapeCast_1ab_ab_apply, shapeCast_self, mmA_apply]

end Cert.LoraLinear.Body

end
-- ==== Proof.KernelValue.lean ====
/-
  The value of the idealized kernel: its result array is the specification `loraLinear` of the six argument arrays.

  The launch runs a 4 × 8 × 8 grid of points (j, b, i): j an output-feature tile of 1024, b a batch row, i a sequence
  tile of 256. At a point the pipeline stages x[b, 256 i …, :], the [4096, 1024] tile j of the transposed weight, tile
  j of the bias row, adapter e_b's slab of A and tile j of its slab of B — e_b the table word of row b, which is the
  row's id clamped into 0 … 7 — and the body stores one [1, 256, 1024] block, written back to (b, i, j) of the result.

  What the body's run leaves in the output's staging buffer is its one store's payload over the five loaded blocks
  (`out_eq`). Each block is read back off the array the launch finds (`xblk_apply` … `bblk_apply`): an entry of the
  block at a point is the entry of the ARGUMENT array at the block's offset plus the entry's coordinates, the host's
  conversions to bf16 being the identity on the extended reals, its transpose swapping the weight's coordinates, its
  reshape adding the bias's unit axis. With the payload read at an index (the body's three contractions as sums),
  the block a point writes back is the specification restricted to that point's rectangle (`flushed_eq`), the 256
  rectangles tile the result (`cover`), and so the result array ends holding the specification (`final`, `run`).
-/
import proofs.«405034_j27504970564261_3_alg».proof.Proof.Gen.KernelIdeal.Frame
import proofs.«405034_j27504970564261_3_alg».proof.Proof.AdapterTable
import proofs.«405034_j27504970564261_3_alg».proof.Proof.BodyValue
import proofs.«405034_j27504970564261_3_alg».proof.Proof.LoraSpec
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.LoraValue

open Cert.KernelIdeal Cert.KernelIdeal.Gen Cert.KernelIdeal.Tables
open Idealize.ShloMosaic Idealize.ShloMosaic.TcCoe Idealize.SL.Sem
open Idealize.ShloMosaic.ValueIdx
open Idealize.ShloMosaic.Pipeline (Dat)
open Cert.LoraLinear (adapter loraLinear loraAt)

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- What a run of the body leaves in the output's staging buffer: its one store covers the block, and the store's
    value is the payload of the five blocks the loads read whole (x, weight, A, B, bias — the payload's argument order). -/
theorem out_eq (c : Dev nD) (i : grid0.Coords) (arg4 : Memref sig .tc .vmem S1x256x4096 .f32) (harg4 : arg4.IsWhole) (arg5 : Memref sig .tc .vmem S4096x1024 .bf16) (harg5 : arg5.IsWhole) (arg6 : Memref sig .tc .vmem S1x1024 .f32) (harg6 : arg6.IsWhole) (arg7 : Memref sig .tc .vmem S1x4096x64 .bf16) (harg7 : arg7.IsWhole) (arg8 : Memref sig .tc .vmem S1x64x1024 .bf16) (harg8 : arg8.IsWhole) (arg9 : Memref sig .tc .vmem S1x256x1024 .f32) (harg9 : arg9.IsWhole)
    (x0 : Vec F S1x256x4096 .f32) (x1 : Vec F S4096x1024 .bf16) (x2 : Vec F S1x1024 .f32) (x3 : Vec F S1x4096x64 .bf16) (x4 : Vec F S1x64x1024 .bf16) (xt0 : TbBuf0 (F := F) c tbM0_0) :
    out0_A_5 c i arg4 harg4 arg5 harg5 arg6 harg6 arg7 harg7 arg8 harg8 arg9 harg9 x0 x1 x2 x3 x4 xt0 = k0_pay1 x0 x1 x3 x4 x2 := by
  unfold out0_A_5
  rw [View.read_writes_eq_canon _ _ _ (cover0_A_5 c i arg4 harg4 arg5 harg5 arg6 harg6 arg7 harg7 arg8 harg8 arg9 harg9 x0 x1 x2 x3 x4 xt0)]
  unfold kernelRun0_A
  dsimp only
  sl_unfold_words
  rw [View.canon_unit_zero hz3]
  simp only [View.readAt_eq_ld, harg4.read_unread, harg5.read_unread, harg6.read_unread, harg7.read_unread, harg8.read_unread,
    View.ld_unit_zero (S := S1x256x4096) hz3, View.ld_unit_zero (S := S4096x1024) hz2, View.ld_unit_zero (S := S1x1024) hz2,
    View.ld_unit_zero (S := S1x4096x64) hz3, View.ld_unit_zero (S := S1x64x1024) hz3]
end Pieces

variable (m : (ℓ : Loc nD τ sig) → Buf (Elt Ideal) ℓ) (ρ : Dev nD → PrngReg)

/-! ## The table-free index maps, by coordinates -/

theorem ofNat_toNat {n : Nat} (h : n < 2 ^ 32) : (BitVec.ofNat 32 n).toNat = n := by
  rw [BitVec.toNat_ofNat]; exact Nat.mod_eq_of_lt h

/-- x's block index at (j, b, i): (b, i, 0). -/
theorem ixX_eq (i : grid0.Coords) : cc0_transform_0 i = ![(i 1).val, (i 2).val, 0] := by
  have h1 : (i 1).val < 8 := (i 1).isLt
  have h2 : (i 2).val < 8 := (i 2).isLt
  have e1 : (BitVec.ofNat 32 (i 1).val).toNat = (i 1).val := ofNat_toNat (by omega)
  have e2 : (BitVec.ofNat 32 (i 2).val).toNat = (i 2).val := ofNat_toNat (by omega)
  funext a
  match a with
  | ⟨0, _⟩ => exact e1
  | ⟨1, _⟩ => exact e2
  | ⟨2, _⟩ => rfl

/-- The weight's block index at (j, b, i): (0, j). -/
theorem ixW_eq (i : grid0.Coords) : cc0_transform_1 i = ![0, (i 0).val] := by
  have h0 : (i 0).val < 4 := (i 0).isLt
  have e0 : (BitVec.ofNat 32 (i 0).val).toNat = (i 0).val := ofNat_toNat (by omega)
  funext a
  match a with
  | ⟨0, _⟩ => rfl
  | ⟨1, _⟩ => exact e0

/-- The bias's block index at (j, b, i): (0, j). -/
theorem ixBias_eq (i : grid0.Coords) : cc0_transform_2 i = ![0, (i 0).val] := by
  have h0 : (i 0).val < 4 := (i 0).isLt
  have e0 : (BitVec.ofNat 32 (i 0).val).toNat = (i 0).val := ofNat_toNat (by omega)
  funext a
  match a with
  | ⟨0, _⟩ => rfl
  | ⟨1, _⟩ => exact e0

/-- The result's block index at (j, b, i): (b, i, j). -/
theorem ixOut_eq (i : grid0.Coords) : cc0_transform_5 i = ![(i 1).val, (i 2).val, (i 0).val] := by
  have h0 : (i 0).val < 4 := (i 0).isLt
  have h1 : (i 1).val < 8 := (i 1).isLt
  have h2 : (i 2).val < 8 := (i 2).isLt
  have e0 : (BitVec.ofNat 32 (i 0).val).toNat = (i 0).val := ofNat_toNat (by omega)
  have e1 : (BitVec.ofNat 32 (i 1).val).toNat = (i 1).val := ofNat_toNat (by omega)
  have e2 : (BitVec.ofNat 32 (i 2).val).toNat = (i 2).val := ofNat_toNat (by omega)
  funext a
  match a with
  | ⟨0, _⟩ => exact e1
  | ⟨1, _⟩ => exact e2
  | ⟨2, _⟩ => exact e0

/-! ## The staged blocks, read off the argument arrays -/

/-- An entry of the x block at point t is x at (b, 256 i + row, column). -/
theorem xblk_apply (c : Dev nD) (t : Fin (cfgM m (ok m)).N) (y : S1x256x4096.Idx) (g : S8x2048x4096.Idx)
    (h0 : (g 0).val = (grid0.coords t 1).val) (h1 : (g 1).val = (grid0.coords t 2).val * 256 + (y 1).val)
    (h2 : (g 2).val = (y 2).val) :
    (iblk m (ok m) c 0 t : Vec Ideal S1x256x4096 .f32) y = m ((c : Thread nD τ).loc main_arg0) g := by
  rw [← V_main_arg0 m c]
  show V m c main_arg0 ((((cfgM m (ok m)).win 0).blk t).view.emb y) = V m c main_arg0 g
  refine congrArg (V m c main_arg0) (funext fun a => Fin.ext ?_)
  have hy0 : (y 0).val = 0 := by have := (y 0).isLt; have e : S1x256x4096.size 0 = 1 := rfl; omega
  have hix := ixX_eq (grid0.coords t)
  match a with
  | ⟨0, _⟩ =>
    show cc0_transform_0 (grid0.coords t) 0 * 1 + 1 * (y 0).val = (g 0).val
    rw [hix, h0, hy0]; simp
  | ⟨1, _⟩ =>
    show cc0_transform_0 (grid0.coords t) 1 * 256 + 1 * (y 1).val = (g 1).val
    rw [hix, h1]; simp
  | ⟨2, _⟩ =>
    show cc0_transform_0 (grid0.coords t) 2 * 4096 + 1 * (y 2).val = (g 2).val
    rw [hix, h2]; simp

/-- An entry (k, column) of the weight block at point t is the weight at (1024 j + column, k): the launch finds the
    weight transposed. -/
theorem wblk_apply (c : Dev nD) (t : Fin (cfgM m (ok m)).N) (y : S4096x1024.Idx) (g : S4096x4096.Idx)
    (h0 : (g 0).val = (grid0.coords t 0).val * 1024 + (y 1).val) (h1 : (g 1).val = (y 0).val) :
    (iblk m (ok m) c 1 t : Vec Ideal S4096x1024 .bf16) y = m ((c : Thread nD τ).loc main_arg2) g := by
  show V m c main_v3 ((((cfgM m (ok m)).win 1).blk t).view.emb y) = _
  rw [V_weight]
  have hix := ixW_eq (grid0.coords t)
  refine (transpose_apply _ _ _ _ g fun b => ?_).trans rfl
  match b with
  | ⟨0, _⟩ =>
    show (g 1).val = cc0_transform_1 (grid0.coords t) 0 * 4096 + 1 * (y 0).val
    rw [hix, h1]; simp
  | ⟨1, _⟩ =>
    show (g 0).val = cc0_transform_1 (grid0.coords t) 1 * 1024 + 1 * (y 1).val
    rw [hix, h0]; simp

/-- The bias row the launch finds, at column q, is the bias at q (the reshape keeps the row-major position). -/
theorem V_bias_apply (c : Dev nD) (q : Fin 4096) :
    V m c main_v1 (ix2 (0 : Fin 1) q) = m ((c : Thread nD τ).loc main_arg3) (ix1 q) := by
  rw [V_bias]
  refine shapeCast_apply _ _ _ (ix1 q) ?_
  rw [Shape.rowMajor_val_one, Shape.rowMajor_val_two]
  exact (Nat.zero_add _).symm.trans (by rfl)

/-- An entry of the bias block at point t is the bias at 1024 j + column. -/
theorem biasblk_apply (c : Dev nD) (t : Fin (cfgM m (ok m)).N) (y : S1x1024.Idx) (q : Fin 4096)
    (h0 : q.val = (grid0.coords t 0).val * 1024 + (y 1).val) :
    (iblk m (ok m) c 2 t : Vec Ideal S1x1024 .f32) y = m ((c : Thread nD τ).loc main_arg3) (ix1 q) := by
  rw [← V_bias_apply m c q]
  show V m c main_v1 ((((cfgM m (ok m)).win 2).blk t).view.emb y) = V m c main_v1 (ix2 (0 : Fin 1) q)
  refine congrArg (V m c main_v1) (funext fun a => Fin.ext ?_)
  have hix := ixBias_eq (grid0.coords t)
  have hy0 : (y 0).val = 0 := by have := (y 0).isLt; have e : S1x1024.size 0 = 1 := rfl; omega
  match a with
  | ⟨0, _⟩ =>
    show cc0_transform_2 (grid0.coords t) 0 * 1 + 1 * (y 0).val = 0
    rw [hix, hy0]; simp
  | ⟨1, _⟩ =>
    show cc0_transform_2 (grid0.coords t) 1 * 1024 + 1 * (y 1).val = q.val
    rw [hix, h0]; simp

/-- An entry of the A block at point t is A at (e_b, row, column), e_b the adapter of batch row b. -/
theorem ablk_apply (c : Dev nD) (t : Fin (cfgM m (ok m)).N) (y : S1x4096x64.Idx) (g : S8x4096x64.Idx)
    (h0 : (g 0).val = (adapter (ids m (ix1 (grid0.coords t 1)))).val) (h1 : (g 1).val = (y 1).val)
    (h2 : (g 2).val = (y 2).val) :
    (iblk m (ok m) c 3 t : Vec Ideal S1x4096x64 .bf16) y = m ((c : Thread nD τ).loc main_arg4) g := by
  have hV : V m c main_v4 g = m ((c : Thread nD τ).loc main_arg4) g := by rw [V_A]; rfl
  rw [← hV]
  show V m c main_v4 ((((cfgM m (ok m)).win 3).blk t).view.emb y) = V m c main_v4 g
  refine congrArg (V m c main_v4) (funext fun a => Fin.ext ?_)
  have hy0 : (y 0).val = 0 := by have := (y 0).isLt; have e : S1x4096x64.size 0 = 1 := rfl; omega
  have hix := ixA_eq m (grid0.coords t)
  rw [tbl_toNat] at hix
  match a with
  | ⟨0, _⟩ =>
    show cc0_transform_3 k0_off1_inb numel1_S1 (tbl m) (grid0.coords t) 0 * 1 + 1 * (y 0).val = (g 0).val
    rw [hix, h0, hy0]; simp
  | ⟨1, _⟩ =>
    show cc0_transform_3 k0_off1_inb numel1_S1 (tbl m) (grid0.coords t) 1 * 4096 + 1 * (y 1).val = (g 1).val
    rw [hix, h1]; simp
  | ⟨2, _⟩ =>
    show cc0_transform_3 k0_off1_inb numel1_S1 (tbl m) (grid0.coords t) 2 * 64 + 1 * (y 2).val = (g 2).val
    rw [hix, h2]; simp

/-- An entry of the B block at point t is B at (e_b, row, 1024 j + column). -/
theorem bblk_apply (c : Dev nD) (t : Fin (cfgM m (ok m)).N) (y : S1x64x1024.Idx) (g : S8x64x4096.Idx)
    (h0 : (g 0).val = (adapter (ids m (ix1 (grid0.coords t 1)))).val) (h1 : (g 1).val = (y 1).val)
    (h2 : (g 2).val = (grid0.coords t 0).val * 1024 + (y 2).val) :
    (iblk m (ok m) c 4 t : Vec Ideal S1x64x1024 .bf16) y = m ((c : Thread nD τ).loc main_arg5) g := by
  have hV : V m c main_v5 g = m ((c : Thread nD τ).loc main_arg5) g := by rw [V_B]; rfl
  rw [← hV]
  show V m c main_v5 ((((cfgM m (ok m)).win 4).blk t).view.emb y) = V m c main_v5 g
  refine congrArg (V m c main_v5) (funext fun a => Fin.ext ?_)
  have hy0 : (y 0).val = 0 := by have := (y 0).isLt; have e : S1x64x1024.size 0 = 1 := rfl; omega
  have hix := ixB_eq m (grid0.coords t)
  rw [tbl_toNat] at hix
  match a with
  | ⟨0, _⟩ =>
    show cc0_transform_4 k0_off1_inb numel1_S1 (tbl m) (grid0.coords t) 0 * 1 + 1 * (y 0).val = (g 0).val
    rw [hix, h0, hy0]; simp
  | ⟨1, _⟩ =>
    show cc0_transform_4 k0_off1_inb numel1_S1 (tbl m) (grid0.coords t) 1 * 64 + 1 * (y 1).val = (g 1).val
    rw [hix, h1]; simp
  | ⟨2, _⟩ =>
    show cc0_transform_4 k0_off1_inb numel1_S1 (tbl m) (grid0.coords t) 2 * 1024 + 1 * (y 2).val = (g 2).val
    rw [hix, h2]; simp

/-- A function on the result array read through the result's block at point t: its value at
    (b, 256 i + row, 1024 j + column). -/
theorem oblk_apply (t : Fin (cfgM m (ok m)).N) (f : S8x2048x4096.Idx → EReal) (y : S1x256x1024.Idx) (g : S8x2048x4096.Idx)
    (h0 : (g 0).val = (grid0.coords t 1).val) (h1 : (g 1).val = (grid0.coords t 2).val * 256 + (y 1).val)
    (h2 : (g 2).val = (grid0.coords t 0).val * 1024 + (y 2).val) :
    (((cfgM m (ok m)).win 5).blk t).view.read (Elt Ideal) f y = f g := by
  show f ((((cfgM m (ok m)).win 5).blk t).view.emb y) = f g
  refine congrArg f (funext fun a => Fin.ext ?_)
  have hy0 : (y 0).val = 0 := by have := (y 0).isLt; have e : S1x256x1024.size 0 = 1 := rfl; omega
  have hix := ixOut_eq (grid0.coords t)
  match a with
  | ⟨0, _⟩ =>
    show cc0_transform_5 (grid0.coords t) 0 * 1 + 1 * (y 0).val = (g 0).val
    rw [hix, h0, hy0]; simp
  | ⟨1, _⟩ =>
    show cc0_transform_5 (grid0.coords t) 1 * 256 + 1 * (y 1).val = (g 1).val
    rw [hix, h1]; simp
  | ⟨2, _⟩ =>
    show cc0_transform_5 (grid0.coords t) 2 * 1024 + 1 * (y 2).val = (g 2).val
    rw [hix, h2]; simp

/-! ## The result array -/

/-- THE VALUE: the specification of the six argument arrays as launched. -/
def result (c : Dev nD) : Buf (Elt Ideal) ((c : Thread nD τ).loc main_v6) :=
  loraLinear (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The result index that entry (row, column) of point t's block lands on. -/
def landing (t : Fin (cfgM m (ok m)).N) (s : Fin 256) (o : Fin 1024) : S8x2048x4096.Idx :=
  ix3 (grid0.coords t 1)
    (⟨(grid0.coords t 2).val * 256 + s.val, by have h : (grid0.coords t 2).val < 8 := (grid0.coords t 2).isLt; omega⟩ : Fin 2048)
    (⟨(grid0.coords t 0).val * 1024 + o.val, by have h : (grid0.coords t 0).val < 4 := (grid0.coords t 0).isLt; omega⟩ : Fin 4096)

/-- The payload of the staged blocks at point t IS the specification on the point's rectangle. -/
theorem payload_eq (c : Dev nD) (t : Fin (cfgM m (ok m)).N) (y : S1x256x1024.Idx) :
    k0_pay1 (F := Ideal) (iblk m (ok m) c 0 t) (iblk m (ok m) c 1 t) (iblk m (ok m) c 3 t) (iblk m (ok m) c 4 t) (iblk m (ok m) c 2 t) y
      = (((cfgM m (ok m)).win 5).blk t).view.read (Elt Ideal) (result m c) y := by
  obtain rfl : c = 0 := Subsingleton.elim _ _
  obtain ⟨u, s, o, rfl⟩ : ∃ (u : Fin 1) (s : Fin 256) (o : Fin 1024), y = ix3 u s o := ⟨y 0, y 1, y 2, eq_ix3 y⟩
  obtain rfl : u = 0 := Subsingleton.elim _ _
  refine (Cert.LoraLinear.Body.body_apply (iblk m (ok m) 0 0 t) (iblk m (ok m) 0 1 t) (iblk m (ok m) 0 3 t) (iblk m (ok m) 0 4 t)
    (iblk m (ok m) 0 2 t) s o).trans ?_
  refine Eq.trans ?_ (oblk_apply m t (result m 0) (ix3 0 s o) (landing m t s o) rfl rfl rfl).symm
  show _ = loraAt _ _ _ _ _ (adapter (ids m (ix1 (grid0.coords t 1)))) (grid0.coords t 1) (landing m t s o 1) (landing m t s o 2)
  unfold loraAt
  refine congrArg₂ (· + ·) (congrArg₂ (· + ·) (Finset.sum_congr rfl fun k _ => ?_) ?_)
    (Finset.sum_congr rfl fun r _ => congrArg₂ (· * ·) (Finset.sum_congr rfl fun k _ => ?_) ?_)
  · exact congrArg₂ (· * ·)
      (xblk_apply m 0 t (ix3 0 s k) (ix3 (grid0.coords t 1) (landing m t s o 1) k) rfl rfl rfl)
      (wblk_apply m 0 t (ix2 k o) (ix2 (landing m t s o 2) k) rfl rfl)
  · exact biasblk_apply m 0 t (ix2 0 o) (landing m t s o 2) rfl
  · exact congrArg₂ (· * ·)
      (xblk_apply m 0 t (ix3 0 s k) (ix3 (grid0.coords t 1) (landing m t s o 1) k) rfl rfl rfl)
      (ablk_apply m 0 t (ix3 0 k r) (ix3 (adapter (ids m (ix1 (grid0.coords t 1)))) k r) rfl rfl rfl)
  · exact bblk_apply m 0 t (ix3 0 r o) (ix3 (adapter (ids m (ix1 (grid0.coords t 1)))) r (landing m t s o 2)) rfl rfl rfl

/-- What point t writes back is the specification read through t's block. -/
theorem flushed_eq (c : Dev nD) (t : Fin (cfgM m (ok m)).N) (hf : ((cfgM m (ok m)).win 5).flush t = true) :
    (dats m (ok m) 0 c).flushed 5 t = (((cfgM m (ok m)).win 5).blk t).view.read (Elt Ideal) (result m c) := by
  show ((cfgM m (ok m)).win 5).cut (grid0.coords t) ((dats m (ok m) 0 c).after 5 t) = _
  rw [after0_5]
  have e : outsAt0 m (ok m) c t
      = k0_pay1 (F := Ideal) (iblk m (ok m) c 0 t) (iblk m (ok m) c 1 t) (iblk m (ok m) c 3 t) (iblk m (ok m) c 4 t) (iblk m (ok m) c 2 t) := by
    unfold outsAt0
    exact out_eq ..
  rw [e]
  funext y
  exact payload_eq m c t y

/-- The grid's coordinates of a point, as quotients and remainders of its number. -/
theorem coords_val (t : Fin grid0.N) :
    (grid0.coords t 0).val = t.val / 64 % 4 ∧ (grid0.coords t 1).val = t.val / 8 % 8 ∧ (grid0.coords t 2).val = t.val % 8 := by
  have s0 : grid0.stride 0 = 64 := by decide
  have s1 : grid0.stride 1 = 8 := by decide
  have s2 : grid0.stride 2 = 1 := by decide
  refine ⟨?_, ?_, ?_⟩
  · show t.val / grid0.stride 0 % 4 = _; rw [s0]
  · show t.val / grid0.stride 1 % 8 = _; rw [s1]
  · show t.val / grid0.stride 2 % 8 = _; rw [s2, Nat.div_one]

/-- Every index (b, s, o) of the result lies in the block of the point (o / 1024, b, s / 256), which writes back. -/
theorem cover (i : S8x2048x4096.Idx) :
    ∃ t : Fin (cfgM m (ok m)).N, ((cfgM m (ok m)).win 5).flush t = true ∧ i ∈ (((cfgM m (ok m)).win 5).blk t).view.set := by
  have hb : (i 0).val < 8 := (i 0).isLt
  have hs : (i 1).val < 2048 := (i 1).isLt
  have ho : (i 2).val < 4096 := (i 2).isLt
  have hN : grid0.N = 256 := N_0
  have htv : (i 2).val / 1024 * 64 + (i 0).val * 8 + (i 1).val / 256 < grid0.N := by rw [hN]; omega
  refine ⟨⟨(i 2).val / 1024 * 64 + (i 0).val * 8 + (i 1).val / 256, htv⟩, flush0_5 _ _, ?_⟩
  refine Eq.mpr (congrArg (fun S => i ∈ S) (View.set_slice_whole main_v6 (((cfgM m (ok m)).win 5).rect ⟨_, htv⟩))) ?_
  refine Rect.mem_set_unit.mpr ?_
  obtain ⟨c0, c1, c2⟩ := coords_val ⟨(i 2).val / 1024 * 64 + (i 0).val * 8 + (i 1).val / 256, htv⟩
  have hix := ixOut_eq (grid0.coords ⟨(i 2).val / 1024 * 64 + (i 0).val * 8 + (i 1).val / 256, htv⟩)
  dsimp only at c0 c1 c2
  intro a
  match a with
  | ⟨0, _⟩ =>
    show cc0_transform_5 (grid0.coords ⟨_, htv⟩) 0 * 1 ≤ (i 0).val ∧ (i 0).val < cc0_transform_5 (grid0.coords ⟨_, htv⟩) 0 * 1 + 1
    rw [hix]; simp only [Matrix.cons_val_zero]; rw [c1]; omega
  | ⟨1, _⟩ =>
    show cc0_transform_5 (grid0.coords ⟨_, htv⟩) 1 * 256 ≤ (i 1).val ∧ (i 1).val < cc0_transform_5 (grid0.coords ⟨_, htv⟩) 1 * 256 + 256
    rw [hix]; simp only [Matrix.cons_val_one, Matrix.cons_val_zero]; rw [c2]; omega
  | ⟨2, _⟩ =>
    show cc0_transform_5 (grid0.coords ⟨_, htv⟩) 2 * 1024 ≤ (i 2).val ∧ (i 2).val < cc0_transform_5 (grid0.coords ⟨_, htv⟩) 2 * 1024 + 1024
    rw [hix]; simp only [Matrix.cons_val_two, Matrix.tail_cons, Matrix.head_cons]; rw [c0]; omega

/-- So the result array ends holding the specification. -/
theorem final (c : Dev nD) : (dats m (ok m) 0 c).arrAt 5 (cfgM m (ok m)).N = result m c :=
  (dats m (ok m) 0 c).arrAt_eq_of_cover 5 (result m c) (flushed_eq m c) (cover m)

/-- THE KERNEL'S RUN with its result named: every weakly fair execution ends with the result array at the specification
    and the six arguments as launched. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 5).trans (final m c),
      ((h c).1 0).trans (((dats m (ok m) 0 c).arrAt_in 0 rfl _).trans ((A_eq m (ok m) c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ (ok m))

end Cert.KernelIdeal.LoraValue

end
-- ==== Proof.RefValue.lean ====
/-
  The reference program's result, read at an index, is the specification `loraLinear`.

  The reference is three contractions, two row gathers, a bias broadcast and two additions. Each is read at an
  index: a contraction is the sum over its one contracting coordinate, a broadcast and an addition read elementwise,
  and a row gather of an [8, n, m] table at [8, 1] start indices is the table at (the start word of row b read signed
  and clamped into 0 … 7, then the two trailing coordinates unchanged). The start word of row b is the id of row b,
  wrapped by 8 when negative; a non-negative id is not wrapped, so the clamped start is the adapter the
  specification names. After that the two sides are the same sums in the same grouping.
-/
import proofs.«405034_j27504970564261_3_alg».proof.Proof.Gen.ReferenceIdeal.Read
import proofs.«405034_j27504970564261_3_alg».proof.Proof.LoraSpec
import Idealize.ShloMosaic.Lib.ValueIdx
import Idealize.ShloMosaic.PureOps.Ideal.Laws

noncomputable section

open scoped BigOperators

namespace Cert.LoraLinear.Ref

open Cert.ReferenceIdeal Cert.ReferenceIdeal.Gen Cert.ReferenceIdeal.Read
open Idealize.ShloMosaic Idealize.ShloMosaic.ValueIdx

/-! ## A row gather read at an index -/

/-- The dimension numbers of the gather of rows of the [8, 4096, 64] table … -/
abbrev GA := gather_S8x4096x64_S8x1_S8x4096x64_12_0_n_n_0_1_1409664
/-- … and of the [8, 64, 4096] table: offset axes 1 and 2, axis 0 collapsed and the one the start index names. -/
abbrev GB := gather_S8x64x4096_S8x1_S8x64x4096_12_0_n_n_0_1_1644096

/-- The start word of result index `j` sits at (row of `j`, 0) of the start indices. -/
theorem GA_siIdx (j : S8x4096x64.Idx)
    (h : List.idxOf (0 : Fin S8x4096x64.rank) GA.startIndexMap < GA.startIndexMap.length) :
    GA.siIdx j ⟨List.idxOf (0 : Fin S8x4096x64.rank) GA.startIndexMap, h⟩ = ix2 (j 0) (0 : Fin 1) := by
  funext b
  refine Fin.ext ?_
  match b with
  | ⟨0, _⟩ => rfl
  | ⟨1, _⟩ => rfl

theorem GB_siIdx (j : S8x64x4096.Idx)
    (h : List.idxOf (0 : Fin S8x64x4096.rank) GB.startIndexMap < GB.startIndexMap.length) :
    GB.siIdx j ⟨List.idxOf (0 : Fin S8x64x4096.rank) GB.startIndexMap, h⟩ = ix2 (j 0) (0 : Fin 1) := by
  funext b
  refine Fin.ext ?_
  match b with
  | ⟨0, _⟩ => rfl
  | ⟨1, _⟩ => rfl

/-- The gather of the first table at `j`: the table at (clamped signed start word of row `j 0`, `j 1`, `j 2`). On
    axis 0 the operand index is the clamped start alone (the axis is collapsed, so no offset is added); on axes 1 and
    2 the start is 0 (the start index does not name them) and the offset is the result's own coordinate. -/
theorem gatherA_apply {α : Type} (x : S8x4096x64.Idx → α) (idx : IVec S8x1 32) (j : S8x4096x64.Idx) :
    Host.gather GA x idx j
      = x (ix3 (⟨min (idx (ix2 (j 0) (0 : Fin 1))).toInt.toNat 7, Nat.lt_succ_of_le (Nat.min_le_right _ _)⟩ : Fin 8)
          (j 1) (j 2)) := by
  unfold Host.gather
  congr 1
  funext a
  refine Fin.ext ?_
  match a with
  | ⟨0, _⟩ =>
    show GA.start j idx 0 + GA.batchCoord j 0 + GA.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S8x4096x64.rank) ∈ GA.startIndexMap from List.mem_singleton.mpr rfl)]
    rw [GA_siIdx]
    rfl
  | ⟨1, _⟩ =>
    show GA.start j idx 1 + GA.batchCoord j 1 + GA.offCoord j 1 = (j 1).val
    rw [GatherDims.batchCoord_eq_zero _ _ _ List.not_mem_nil]
    unfold GatherDims.start GatherDims.offCoord
    rw [dif_neg (show ¬ (1 : Fin S8x4096x64.rank) ∈ GA.startIndexMap by decide),
      dif_pos (show (1 : Fin S8x4096x64.rank) ∈ GA.sKept by decide)]
    simp only [Nat.zero_add, Nat.add_zero]
    rfl
  | ⟨2, _⟩ =>
    show GA.start j idx 2 + GA.batchCoord j 2 + GA.offCoord j 2 = (j 2).val
    rw [GatherDims.batchCoord_eq_zero _ _ _ List.not_mem_nil]
    unfold GatherDims.start GatherDims.offCoord
    rw [dif_neg (show ¬ (2 : Fin S8x4096x64.rank) ∈ GA.startIndexMap by decide),
      dif_pos (show (2 : Fin S8x4096x64.rank) ∈ GA.sKept by decide)]
    simp only [Nat.zero_add, Nat.add_zero]
    rfl

/-- The gather of the second table at `j`, the same way. -/
theorem gatherB_apply {α : Type} (x : S8x64x4096.Idx → α) (idx : IVec S8x1 32) (j : S8x64x4096.Idx) :
    Host.gather GB x idx j
      = x (ix3 (⟨min (idx (ix2 (j 0) (0 : Fin 1))).toInt.toNat 7, Nat.lt_succ_of_le (Nat.min_le_right _ _)⟩ : Fin 8)
          (j 1) (j 2)) := by
  unfold Host.gather
  congr 1
  funext a
  refine Fin.ext ?_
  match a with
  | ⟨0, _⟩ =>
    show GB.start j idx 0 + GB.batchCoord j 0 + GB.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S8x64x4096.rank) ∈ GB.startIndexMap from List.mem_singleton.mpr rfl)]
    rw [GB_siIdx]
    rfl
  | ⟨1, _⟩ =>
    show GB.start j idx 1 + GB.batchCoord j 1 + GB.offCoord j 1 = (j 1).val
    rw [GatherDims.batchCoord_eq_zero _ _ _ List.not_mem_nil]
    unfold GatherDims.start GatherDims.offCoord
    rw [dif_neg (show ¬ (1 : Fin S8x64x4096.rank) ∈ GB.startIndexMap by decide),
      dif_pos (show (1 : Fin S8x64x4096.rank) ∈ GB.sKept by decide)]
    simp only [Nat.zero_add, Nat.add_zero]
    rfl
  | ⟨2, _⟩ =>
    show GB.start j idx 2 + GB.batchCoord j 2 + GB.offCoord j 2 = (j 2).val
    rw [GatherDims.batchCoord_eq_zero _ _ _ List.not_mem_nil]
    unfold GatherDims.start GatherDims.offCoord
    rw [dif_neg (show ¬ (2 : Fin S8x64x4096.rank) ∈ GB.startIndexMap by decide),
      dif_pos (show (2 : Fin S8x64x4096.rank) ∈ GB.sKept by decide)]
    simp only [Nat.zero_add, Nat.add_zero]
    rfl

/-- At coordinates, with the clamped start named: any `e` whose value is the clamped start word of row `b`. -/
theorem gatherA_at {α : Type} (x : S8x4096x64.Idx → α) (idx : IVec S8x1 32) (b : Fin 8) (k : Fin 4096) (r : Fin 64)
    (e : Fin 8) (he : e.val = min (idx (ix2 b (0 : Fin 1))).toInt.toNat 7) :
    Host.gather GA x idx (ix3 b k r) = x (ix3 e k r) := by
  rw [gatherA_apply]
  exact congrArg (fun p : Fin 8 => x (ix3 p k r)) (Fin.ext he.symm)

theorem gatherB_at {α : Type} (x : S8x64x4096.Idx → α) (idx : IVec S8x1 32) (b : Fin 8) (r : Fin 64) (o : Fin 4096)
    (e : Fin 8) (he : e.val = min (idx (ix2 b (0 : Fin 1))).toInt.toNat 7) :
    Host.gather GB x idx (ix3 b r o) = x (ix3 e r o) := by
  rw [gatherB_apply]
  exact congrArg (fun p : Fin 8 => x (ix3 p r o)) (Fin.ext he.symm)

/-! ## The start words -/

/-- The start word of row `b` for the first gather: the id of row `b`, which is not negative and so not wrapped. -/
theorem start_A (x1 : (⟨S8, .i32⟩ : BufTy).Contents (Elt Ideal)) (hids : ∀ i : S8.Idx, IntOp.cmpi .sge (x1 i) 0#32 = 1#1)
    (b : Fin 8) : val_main_v9 (F := Ideal) x1 (ix2 b (0 : Fin 1)) = x1 (ix1 b) := by
  rw [val_main_v9_apply]
  have e : idx_main_v9 (ix2 b (0 : Fin 1)) = ix1 b := funext fun a => by match a with | ⟨0, _⟩ => rfl
  rw [e, val_main_v8_apply, val_main_v5_apply, val_main_v7_apply, val_main_v4_apply, val_main_v6_apply,
    val_main_c_apply, val_main_c_0_apply]
  exact wrap_of_nonneg _ (hids _)

/-- The start word of row `b` for the second gather, the same word. -/
theorem start_B (x1 : (⟨S8, .i32⟩ : BufTy).Contents (Elt Ideal)) (hids : ∀ i : S8.Idx, IntOp.cmpi .sge (x1 i) 0#32 = 1#1)
    (b : Fin 8) : val_main_v16 (F := Ideal) x1 (ix2 b (0 : Fin 1)) = x1 (ix1 b) := by
  rw [val_main_v16_apply]
  have e : idx_main_v16 (ix2 b (0 : Fin 1)) = ix1 b := funext fun a => by match a with | ⟨0, _⟩ => rfl
  rw [e, val_main_v15_apply, val_main_v12_apply, val_main_v14_apply, val_main_v11_apply, val_main_v13_apply,
    val_main_c_1_apply, val_main_c_2_apply]
  exact wrap_of_nonneg _ (hids _)

/-! ## The gathered tables -/

/-- Row `b` of the gathered first table is row `adapter (id b)` of the first table. -/
theorem v10_at (x1 : (⟨S8, .i32⟩ : BufTy).Contents (Elt Ideal)) (x4 : (⟨S8x4096x64, .f32⟩ : BufTy).Contents (Elt Ideal))
    (hids : ∀ i : S8.Idx, IntOp.cmpi .sge (x1 i) 0#32 = 1#1) (b : Fin 8) (k : Fin 4096) (r : Fin 64) :
    val_main_v10 (F := Ideal) x1 x4 (ix3 b k r) = x4 (ix3 (adapter (x1 (ix1 b))) k r) := by
  unfold val_main_v10
  exact gatherA_at x4 _ b k r (adapter (x1 (ix1 b))) (by rw [start_A x1 hids b]; rfl)

/-- Row `b` of the gathered second table is row `adapter (id b)` of the second table. -/
theorem v17_at (x1 : (⟨S8, .i32⟩ : BufTy).Contents (Elt Ideal)) (x5 : (⟨S8x64x4096, .f32⟩ : BufTy).Contents (Elt Ideal))
    (hids : ∀ i : S8.Idx, IntOp.cmpi .sge (x1 i) 0#32 = 1#1) (b : Fin 8) (r : Fin 64) (o : Fin 4096) :
    val_main_v17 (F := Ideal) x1 x5 (ix3 b r o) = x5 (ix3 (adapter (x1 (ix1 b))) r o) := by
  unfold val_main_v17
  exact gatherB_at x5 _ b r o (adapter (x1 (ix1 b))) (by rw [start_B x1 hids b]; rfl)

/-! ## The three contractions -/

/-- The base linear map plus the bias, at (b, s, o). -/
theorem base_at (x0 : (⟨S8x2048x4096, .f32⟩ : BufTy).Contents (Elt Ideal)) (x2 : (⟨S4096x4096, .f32⟩ : BufTy).Contents (Elt Ideal))
    (x3 : (⟨S4096, .f32⟩ : BufTy).Contents (Elt Ideal)) (b : Fin 8) (s : Fin 2048) (o : Fin 4096) :
    val_main_v3 (F := Ideal) x0 x2 x3 (ix3 b s o) = (∑ k : Fin 4096, x0 (ix3 b s k) * x2 (ix2 o k)) + x3 (ix1 o) := by
  rw [val_main_v3_apply, val_main_v0_apply, val_main_v2_apply, val_main_v1_apply]
  have e3 : idx_main_v1 (idx_main_v2 (ix3 b s o)) = ix1 o := funext fun a => by match a with | ⟨0, _⟩ => rfl
  have e0 : ∑ k : Fin 4096, x0 (lidx_main_v0 (ix3 b s o) k) * x2 (ridx_main_v0 (ix3 b s o) k)
      = ∑ k : Fin 4096, x0 (ix3 b s k) * x2 (ix2 o k) := by
    refine Finset.sum_congr rfl fun k _ => ?_
    have el : lidx_main_v0 (ix3 b s o) k = ix3 b s k :=
      funext fun a => by match a with | ⟨0, _⟩ => rfl | ⟨1, _⟩ => rfl | ⟨2, _⟩ => rfl
    have er : ridx_main_v0 (ix3 b s o) k = ix2 o k := funext fun a => by match a with | ⟨0, _⟩ => rfl | ⟨1, _⟩ => rfl
    rw [el, er]
  rw [e3, e0]
  rfl

/-- The down projection through the row's adapter, at (b, s, r). -/
theorem v18_at (x0 : (⟨S8x2048x4096, .f32⟩ : BufTy).Contents (Elt Ideal)) (x1 : (⟨S8, .i32⟩ : BufTy).Contents (Elt Ideal))
    (x4 : (⟨S8x4096x64, .f32⟩ : BufTy).Contents (Elt Ideal)) (hids : ∀ i : S8.Idx, IntOp.cmpi .sge (x1 i) 0#32 = 1#1)
    (b : Fin 8) (s : Fin 2048) (r : Fin 64) :
    val_main_v18 (F := Ideal) x0 x1 x4 (ix3 b s r)
      = ∑ k : Fin 4096, x0 (ix3 b s k) * x4 (ix3 (adapter (x1 (ix1 b))) k r) := by
  rw [val_main_v18_apply]
  refine Finset.sum_congr rfl fun k _ => ?_
  have el : lidx_main_v18 (ix3 b s r) k = ix3 b s k :=
    funext fun a => by match a with | ⟨0, _⟩ => rfl | ⟨1, _⟩ => rfl | ⟨2, _⟩ => rfl
  have er : ridx_main_v18 (ix3 b s r) k = ix3 b k r :=
    funext fun a => by match a with | ⟨0, _⟩ => rfl | ⟨1, _⟩ => rfl | ⟨2, _⟩ => rfl
  rw [el, er, v10_at x1 x4 hids b k r]

/-- The up projection through the row's adapter, at (b, s, o). -/
theorem v19_at (x0 : (⟨S8x2048x4096, .f32⟩ : BufTy).Contents (Elt Ideal)) (x1 : (⟨S8, .i32⟩ : BufTy).Contents (Elt Ideal))
    (x4 : (⟨S8x4096x64, .f32⟩ : BufTy).Contents (Elt Ideal)) (x5 : (⟨S8x64x4096, .f32⟩ : BufTy).Contents (Elt Ideal))
    (hids : ∀ i : S8.Idx, IntOp.cmpi .sge (x1 i) 0#32 = 1#1) (b : Fin 8) (s : Fin 2048) (o : Fin 4096) :
    val_main_v19 (F := Ideal) x0 x1 x4 x5 (ix3 b s o)
      = ∑ r : Fin 64, (∑ k : Fin 4096, x0 (ix3 b s k) * x4 (ix3 (adapter (x1 (ix1 b))) k r))
          * x5 (ix3 (adapter (x1 (ix1 b))) r o) := by
  rw [val_main_v19_apply]
  refine Finset.sum_congr rfl fun r _ => ?_
  have el : lidx_main_v19 (ix3 b s o) r = ix3 b s r :=
    funext fun a => by match a with | ⟨0, _⟩ => rfl | ⟨1, _⟩ => rfl | ⟨2, _⟩ => rfl
  have er : ridx_main_v19 (ix3 b s o) r = ix3 b r o :=
    funext fun a => by match a with | ⟨0, _⟩ => rfl | ⟨1, _⟩ => rfl | ⟨2, _⟩ => rfl
  rw [el, er, v18_at x0 x1 x4 hids b s r, v17_at x1 x5 hids b r o]

/-! ## The result -/

/-- The specification at coordinates. -/
theorem loraLinear_at (x0 : (⟨S8x2048x4096, .f32⟩ : BufTy).Contents (Elt Ideal)) (x1 : (⟨S8, .i32⟩ : BufTy).Contents (Elt Ideal))
    (x2 : (⟨S4096x4096, .f32⟩ : BufTy).Contents (Elt Ideal)) (x3 : (⟨S4096, .f32⟩ : BufTy).Contents (Elt Ideal))
    (x4 : (⟨S8x4096x64, .f32⟩ : BufTy).Contents (Elt Ideal)) (x5 : (⟨S8x64x4096, .f32⟩ : BufTy).Contents (Elt Ideal))
    (b : Fin 8) (s : Fin 2048) (o : Fin 4096) :
    Cert.LoraLinear.loraLinear x0 x1 x2 x3 x4 x5 (ix3 b s o)
      = ((∑ k : Fin 4096, x0 (ix3 b s k) * x2 (ix2 o k)) + x3 (ix1 o))
        + ∑ r : Fin 64, (∑ k : Fin 4096, x0 (ix3 b s k) * x4 (ix3 (adapter (x1 (ix1 b))) k r))
            * x5 (ix3 (adapter (x1 (ix1 b))) r o) := rfl

/-- With every id word non-negative, the reference's last stage is the specification of its six arguments. -/
theorem reference_eq (x0 : (⟨S8x2048x4096, .f32⟩ : BufTy).Contents (Elt Ideal)) (x1 : (⟨S8, .i32⟩ : BufTy).Contents (Elt Ideal))
    (x2 : (⟨S4096x4096, .f32⟩ : BufTy).Contents (Elt Ideal)) (x3 : (⟨S4096, .f32⟩ : BufTy).Contents (Elt Ideal))
    (x4 : (⟨S8x4096x64, .f32⟩ : BufTy).Contents (Elt Ideal)) (x5 : (⟨S8x64x4096, .f32⟩ : BufTy).Contents (Elt Ideal))
    (hids : ∀ i : S8.Idx, IntOp.cmpi .sge (x1 i) 0#32 = 1#1) :
    val_main_v20 (F := Ideal) x0 x1 x2 x3 x4 x5 = Cert.LoraLinear.loraLinear x0 x1 x2 x3 x4 x5 := by
  funext j
  obtain ⟨b, s, o, rfl⟩ : ∃ (b : Fin 8) (s : Fin 2048) (o : Fin 4096), j = ix3 b s o := ⟨j 0, j 1, j 2, eq_ix3 j⟩
  rw [val_main_v20_apply, base_at x0 x2 x3 b s o, v19_at x0 x1 x4 x5 hids b s o, loraLinear_at]
  rfl

end Cert.LoraLinear.Ref

end
-- ==== Proof.lean ====
/-
  The certificate of a LoRA linear layer: a Pallas kernel against its jnp reference.

  Both programs compute, for batch row b, position s and output feature o,
      y[b, s, o] = (Σ_k x[b, s, k] · W[o, k] + bias[o]) + Σ_r (Σ_k x[b, s, k] · A[e_b, k, r]) · B[e_b, r, o],
  where e_b is the adapter row b's id selects (Proof/LoraSpec.lean). The kernel clips the id into 0 … 7; the reference
  indexes the adapter tables with it, which wraps a negative id by 8 and clamps the start of the gathered slice. The two
  agree exactly when the id is not negative (an id above 7 is clamped to 7 by both), which is the precondition's one
  conjunct beside finiteness. Finiteness itself is never used: the kernel's sums and products are the reference's, in the
  same grouping, so the two results are equal as extended reals whatever the float inputs are.

  The frames: the kernel's pipeline reads a prefetched table of clipped ids, and its table-indexed blocks lie inside the
  adapter arrays for every memory, because the clip puts every word in range (Proof/AdapterTable.lean, and its copy for
  the word-level program); the reference's frame is its run with the result dropped. No rewrite was made when the kernel
  was idealized, so there is nothing to preserve. The value: the kernel's result array is the specification
  (Proof/KernelValue.lean over Proof/BodyValue.lean), the reference's last stage is the specification
  (Proof/RefValue.lean, under the ids' non-negativity read off the precondition by Proof/IdsNonneg.lean).
-/
import proofs.«405034_j27504970564261_3_alg».proof.Defs
import proofs.«405034_j27504970564261_3_alg».proof.Proof.Gen.Kernel
import proofs.«405034_j27504970564261_3_alg».proof.Proof.Gen.Kernel.Skeleton
import proofs.«405034_j27504970564261_3_alg».proof.Proof.Gen.Kernel.Launch
import proofs.«405034_j27504970564261_3_alg».proof.Proof.Gen.Kernel.Points
import proofs.«405034_j27504970564261_3_alg».proof.Proof.Gen.Kernel.Frame
import proofs.«405034_j27504970564261_3_alg».proof.Proof.Gen.KernelIdeal
import proofs.«405034_j27504970564261_3_alg».proof.Proof.Gen.KernelIdeal.Skeleton
import proofs.«405034_j27504970564261_3_alg».proof.Proof.Gen.KernelIdeal.Launch
import proofs.«405034_j27504970564261_3_alg».proof.Proof.Gen.KernelIdeal.Points
import proofs.«405034_j27504970564261_3_alg».proof.Proof.Gen.KernelIdeal.Frame
import proofs.«405034_j27504970564261_3_alg».proof.Proof.Gen.ReferenceIdeal
import proofs.«405034_j27504970564261_3_alg».proof.Proof.Gen.Pre_finite_inputs
import proofs.«405034_j27504970564261_3_alg».proof.Proof.Gen.ReferenceIdeal.Run
import proofs.«405034_j27504970564261_3_alg».proof.Proof.Gen.ReferenceIdeal.Read
import proofs.«405034_j27504970564261_3_alg».proof.Proof.LoraSpec
import proofs.«405034_j27504970564261_3_alg».proof.Proof.IdsNonneg
import proofs.«405034_j27504970564261_3_alg».proof.Proof.AdapterTable
import proofs.«405034_j27504970564261_3_alg».proof.Proof.AdapterTableBits
import proofs.«405034_j27504970564261_3_alg».proof.Proof.BodyValue
import proofs.«405034_j27504970564261_3_alg».proof.Proof.KernelValue
import proofs.«405034_j27504970564261_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: its frame, under the table's side condition, which holds of
    every memory. -/
theorem frame_p : Cert.frame_Kernel := fun m ρ _ => Cert.Kernel.Gen.frame m ρ (Cert.Kernel.Tables.ok m)

/-- The idealized kernel, the same. -/
theorem frame_pi : Cert.frame_KernelIdeal := fun m ρ _ =>
  Cert.KernelIdeal.Gen.frame m ρ (Cert.KernelIdeal.Tables.ok m)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the specification of those arguments in their
    result arrays: the kernel by its value, the reference by its last stage, the ids being non-negative. -/
theorem algebraic : Cert.algebraic_KernelIdeal_ReferenceIdeal := by
  intro m ρ m' ρ' hpre hagree
  refine ⟨fun c => Cert.KernelIdeal.LoraValue.result m c, Cert.KernelIdeal.LoraValue.run m ρ, ?_⟩
  refine (θ_run Cert.ReferenceIdeal.defs _ _).mono (fun _ h c => ⟨(h c).1.trans ?_, (h c).2⟩)
    (Cert.ReferenceIdeal.Value.run (F := Ideal) m' ρ')
  have hids : ∀ i : Cert.ReferenceIdeal.S8.Idx,
      IntOp.cmpi .sge (m' ((c.tc : Thread Cert.ReferenceIdeal.nD Cert.ReferenceIdeal.τ).loc Cert.ReferenceIdeal.main_arg1) i) 0#32 = 1#1 := by
    intro i
    rw [(hagree c).2.1]
    exact Cert.LoraLinear.ids_nonneg _ _ _ _ _ _ (hpre c) i
  rw [Cert.ReferenceIdeal.Read.val_main_v20_eq, Cert.LoraLinear.Ref.reference_eq _ _ _ _ _ _ hids,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
